-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x6x41x16x44x64 : Shape := ⟨6, ![4, 6, 41, 16, 44, 64]⟩
abbrev S4x6x41x16x44x3 : Shape := ⟨6, ![4, 6, 41, 16, 44, 3]⟩
abbrev S_ : Shape := ⟨0, ![]⟩

class Facts : Prop where
  bcast_S_S4x6x41x16x44x64 : S_.BroadcastsInDim S4x6x41x16x44x64 (![] : Fin 0 → Fin S4x6x41x16x44x64.rank)
  reducesTo_S4x6x41x16x44x64_S_d0_1_2_3_4_5 : S4x6x41x16x44x64.ReducesTo [0, 1, 2, 3, 4, 5] S_
  h_S_ : 0 < S_.numel

variable [Facts]

def fn {F : FTy → Type} [FloatOps F] (main_arg0 : FVec F S4x6x41x16x44x64 .f32) (main_arg1 : IVec S4x6x41x16x44x3 32) : IVec S_ 1 :=
  let main_v0 : FVec F S4x6x41x16x44x64 .f32 := Host.absf main_arg0
  let main_cst : FVec F S_ .f32 := constant S_ .f32 0x7F800000#32
  let main_v1 : FVec F S4x6x41x16x44x64 .f32 := broadcastInDim S4x6x41x16x44x64 ![] bcast_S_S4x6x41x16x44x64 main_cst
  let main_v2 : IVec S4x6x41x16x44x64 1 := cmpf .olt main_v0 main_v1
  let main_c : IVec S_ 1 := constantI S_ 1 1#1
  let main_v3 : IVec S_ 1 := (fun x v => Host.reduce IntOp.andi x v reducesTo_S4x6x41x16x44x64_S_d0_1_2_3_4_5 h_S_) main_v2 main_c
  main_v3
-- ==== Kernel.lean ====
abbrev S4x6x41x16x44x64 : Shape := ⟨6, ![4, 6, 41, 16, 44, 64]⟩
abbrev S4x6x41x16x44x3 : Shape := ⟨6, ![4, 6, 41, 16, 44, 3]⟩
abbrev S4x173184x64 : Shape := ⟨3, ![4, 173184, 64]⟩
abbrev S4x173184x3 : Shape := ⟨3, ![4, 173184, 3]⟩
abbrev S4x173184x1 : Shape := ⟨3, ![4, 173184, 1]⟩
abbrev S4x173184 : Shape := ⟨2, ![4, 173184]⟩
abbrev S_ : Shape := ⟨0, ![]⟩
abbrev S4x176128x64 : Shape := ⟨3, ![4, 176128, 64]⟩
abbrev S4x176128 : Shape := ⟨2, ![4, 176128]⟩
abbrev S4x176128x1 : Shape := ⟨3, ![4, 176128, 1]⟩
abbrev S4x64x40960 : Shape := ⟨3, ![4, 64, 40960]⟩
abbrev S1x4096x64 : Shape := ⟨3, ![1, 4096, 64]⟩
abbrev S1x4096x1 : Shape := ⟨3, ![1, 4096, 1]⟩
abbrev S1x64x2048 : Shape := ⟨3, ![1, 64, 2048]⟩
abbrev S64x2048 : Shape := ⟨2, ![64, 2048]⟩
abbrev S4096x64 : Shape := ⟨2, ![4096, 64]⟩
abbrev S4096 : Shape := ⟨1, ![4096]⟩
abbrev S1x2048 : Shape := ⟨2, ![1, 2048]⟩
abbrev S4096x1 : Shape := ⟨2, ![4096, 1]⟩
abbrev S4096x2048 : Shape := ⟨2, ![4096, 2048]⟩
abbrev S4x64x40000 : Shape := ⟨3, ![4, 64, 40000]⟩
abbrev S4x64x200x200 : Shape := ⟨4, ![4, 64, 200, 200]⟩

abbrev nBuf : Space → Nat
  | .hbm => 58
  | .vmem => 7
  | .smem => 0
  | _ => 0

abbrev bufTy : (tb : Table) → Fin (tcTables nBuf tb) → BufTy
  | .hbm, ⟨0, _⟩ => ⟨S4x6x41x16x44x64, .f32⟩
  | .hbm, ⟨1, _⟩ => ⟨S4x6x41x16x44x3, .i32⟩
  | .hbm, ⟨2, _⟩ => ⟨S4x173184x64, .f32⟩
  | .hbm, ⟨3, _⟩ => ⟨S4x173184x3, .i32⟩
  | .hbm, ⟨4, _⟩ => ⟨S4x173184x1, .i32⟩
  | .hbm, ⟨5, _⟩ => ⟨S4x173184, .i32⟩
  | .hbm, ⟨6, _⟩ => ⟨S4x173184x1, .i32⟩
  | .hbm, ⟨7, _⟩ => ⟨S4x173184, .i32⟩
  | .hbm, ⟨8, _⟩ => ⟨S4x173184x1, .i32⟩
  | .hbm, ⟨9, _⟩ => ⟨S4x173184, .i32⟩
  | .hbm, ⟨10, _⟩ => ⟨S_, .i32⟩
  | .hbm, ⟨11, _⟩ => ⟨S4x173184, .i32⟩
  | .hbm, ⟨12, _⟩ => ⟨S4x173184, .i1⟩
  | .hbm, ⟨13, _⟩ => ⟨S_, .i32⟩
  | .hbm, ⟨14, _⟩ => ⟨S4x173184, .i32⟩
  | .hbm, ⟨15, _⟩ => ⟨S4x173184, .i1⟩
  | .hbm, ⟨16, _⟩ => ⟨S4x173184, .i1⟩
  | .hbm, ⟨17, _⟩ => ⟨S_, .i32⟩
  | .hbm, ⟨18, _⟩ => ⟨S4x173184, .i32⟩
  | .hbm, ⟨19, _⟩ => ⟨S4x173184, .i1⟩
  | .hbm, ⟨20, _⟩ => ⟨S4x173184, .i1⟩
  | .hbm, ⟨21, _⟩ => ⟨S_, .i32⟩
  | .hbm, ⟨22, _⟩ => ⟨S4x173184, .i32⟩
  | .hbm, ⟨23, _⟩ => ⟨S4x173184, .i1⟩
  | .hbm, ⟨24, _⟩ => ⟨S4x173184, .i1⟩
  | .hbm, ⟨25, _⟩ => ⟨S_, .i32⟩
  | .hbm, ⟨26, _⟩ => ⟨S4x173184, .i32⟩
  | .hbm, ⟨27, _⟩ => ⟨S4x173184, .i1⟩
  | .hbm, ⟨28, _⟩ => ⟨S4x173184, .i1⟩
  | .hbm, ⟨29, _⟩ => ⟨S_, .i32⟩
  | .hbm, ⟨30, _⟩ => ⟨S4x173184, .i32⟩
  | .hbm, ⟨31, _⟩ => ⟨S4x173184, .i1⟩
  | .hbm, ⟨32, _⟩ => ⟨S4x173184, .i1⟩
  | .hbm, ⟨33, _⟩ => ⟨S4x173184x1, .i1⟩
  | .hbm, ⟨34, _⟩ => ⟨S_, .f32⟩
  | .hbm, ⟨35, _⟩ => ⟨S_, .f32⟩
  | .hbm, ⟨36, _⟩ => ⟨S4x173184x64, .i1⟩
  | .hbm, ⟨37, _⟩ => ⟨S4x173184x64, .f32⟩
  | .hbm, ⟨38, _⟩ => ⟨S4x173184x64, .f32⟩
  | .hbm, ⟨39, _⟩ => ⟨S_, .i32⟩
  | .hbm, ⟨40, _⟩ => ⟨S4x173184, .i32⟩
  | .hbm, ⟨41, _⟩ => ⟨S4x173184, .i32⟩
  | .hbm, ⟨42, _⟩ => ⟨S4x173184, .i32⟩
  | .hbm, ⟨43, _⟩ => ⟨S_, .i32⟩
  | .hbm, ⟨44, _⟩ => ⟨S_, .i32⟩
  | .hbm, ⟨45, _⟩ => ⟨S4x173184, .i32⟩
  | .hbm, ⟨46, _⟩ => ⟨S4x173184, .i32⟩
  | .hbm, ⟨47, _⟩ => ⟨S_, .i32⟩
  | .hbm, ⟨48, _⟩ => ⟨S_, .f32⟩
  | .hbm, ⟨49, _⟩ => ⟨S4x176128x64, .f32⟩
  | .hbm, ⟨50, _⟩ => ⟨S4x176128x64, .bf16⟩
  | .hbm, ⟨51, _⟩ => ⟨S_, .i32⟩
  | .hbm, ⟨52, _⟩ => ⟨S_, .i32⟩
  | .hbm, ⟨53, _⟩ => ⟨S4x176128, .i32⟩
  | .hbm, ⟨54, _⟩ => ⟨S4x176128x1, .i32⟩
  | .hbm, ⟨55, _⟩ => ⟨S4x64x40960, .f32⟩
  | .hbm, ⟨56, _⟩ => ⟨S4x64x40000, .f32⟩
  | .hbm, ⟨57, _⟩ => ⟨S4x64x200x200, .f32⟩
  | .local _ .vmem, ⟨0, _⟩ => ⟨S1x4096x64, .bf16⟩
  | .local _ .vmem, ⟨1, _⟩ => ⟨S1x4096x64, .bf16⟩
  | .local _ .vmem, ⟨2, _⟩ => ⟨S1x4096x1, .i32⟩
  | .local _ .vmem, ⟨3, _⟩ => ⟨S1x4096x1, .i32⟩
  | .local _ .vmem, ⟨4, _⟩ => ⟨S1x64x2048, .f32⟩
  | .local _ .vmem, ⟨5, _⟩ => ⟨S1x64x2048, .f32⟩
  | .local _ .vmem, ⟨6, _⟩ => ⟨S64x2048, .f32⟩
  | _, _ => ⟨S4x6x41x16x44x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_call1_v0 : Ref sig .tc := ⟨.hbm, 44, rfl⟩
abbrev main_call1_v1 : Ref sig .tc := ⟨.hbm, 45, rfl⟩
abbrev main_v30 : Ref sig .tc := ⟨.hbm, 46, rfl⟩
abbrev main_c_7 : Ref sig .tc := ⟨.hbm, 47, rfl⟩
abbrev main_call2_v0 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_call3_v0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 20, 43], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x4096x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S4x6x41x16x44x64_S4x173184x64 : S4x6x41x16x44x64.ShapeCasts S4x173184x64
  shapeCasts_S4x6x41x16x44x3_S4x173184x3 : S4x6x41x16x44x3.ShapeCasts S4x173184x3
  slices_S4x173184x3_S4x173184x1_0_0_0 : S4x173184x3.Slices ![0, 0, 0] S4x173184x1
  shapeCasts_S4x173184x1_S4x173184 : S4x173184x1.ShapeCasts S4x173184
  slices_S4x173184x3_S4x173184x1_0_0_1 : S4x173184x3.Slices ![0, 0, 1] S4x173184x1
  slices_S4x173184x3_S4x173184x1_0_0_2 : S4x173184x3.Slices ![0, 0, 2] S4x173184x1
  bcast_S_S4x173184 : S_.BroadcastsInDim S4x173184 (![] : Fin 0 → Fin S4x173184.rank)
  bcast_S4x173184_S4x173184x1_0_1 : S4x173184.BroadcastsInDim S4x173184x1 (![0, 1] : Fin 2 → Fin S4x173184x1.rank)
  bcast_S4x173184x1_S4x173184x64_0_1_2 : S4x173184x1.BroadcastsInDim S4x173184x64 (![0, 1, 2] : Fin 3 → Fin S4x173184x64.rank)
  bcast_S_S4x173184x64 : S_.BroadcastsInDim S4x173184x64 (![] : Fin 0 → Fin S4x173184x64.rank)
  pads_S4x173184x64_S4x176128x64_000_029440_000 : S4x173184x64.Pads (![0, 0, 0] : Fin 3 → Nat) ![0, 2944, 0] ![0, 0, 0] S4x176128x64
  h_S_ : 0 < S_.numel
  bitsLt_bf16_f32 : FTy.bits .bf16 < FTy.bits .f32
  pads_S4x173184_S4x176128_000_029440 : S4x173184.Pads (![0, 0] : Fin 2 → Nat) ![0, 2944] ![0, 0] S4x176128
  bcast_S4x176128_S4x176128x1_0_1 : S4x176128.BroadcastsInDim S4x176128x1 (![0, 1] : Fin 2 → Fin S4x176128x1.rank)
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096 : S1x4096x1.ShapeCasts S4096
  iota_S1x2048_d1_w32 : S1x2048.Iotas .tc 32 [1]
  shapeCasts_S4096_S4096x1 : S4096.ShapeCasts S4096x1
  broadcasts_S4096x1_S4096x2048 : S4096x1.Broadcasts S4096x2048
  broadcasts_S1x2048_S4096x2048 : S1x2048.Broadcasts S4096x2048
  natLt_1_32 : 1 < 32
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  shapeCasts_S64x2048_S1x64x2048 : S64x2048.ShapeCasts S1x64x2048
  slices_S4x64x40960_S4x64x40000_0_0_0 : S4x64x40960.Slices ![0, 0, 0] S4x64x40000
  shapeCasts_S4x64x40000_S4x64x200x200 : S4x64x40000.ShapeCasts S4x64x200x200
  dot_S4096x64_S4096x2048_S64x2048_0_0_1_1_n_n_wf : DotDims.WF S4096x64 S4096x2048 S64x2048 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S4x176128x64.size a
  hwx0_0 : ∀ i : grid0.Coords, EltTy.bits .bf16 = 32 ∨ (Rect.block (s := S4x176128x64) S1x4096x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x1.size a ≤ S4x176128x1.size a
  hwx0_1 : ∀ i : grid0.Coords, EltTy.bits .i32 = 32 ∨ (Rect.block (s := S4x176128x1) S1x4096x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x2048.size a ≤ S4x64x40960.size a
  hwx0_2 : ∀ i : grid0.Coords, EltTy.bits .f32 = 32 ∨ (Rect.block (s := S4x64x40960) S1x64x2048.size (cc0_transform_2 i) (hinb0_2 i)).WholeWords (EltTy.packing .f32)

variable [Facts₀]

def dot_S4096x64_S4096x2048_S64x2048_0_0_1_1_n_n : DotDims S4096x64 S4096x2048 S64x2048 where
  lhsContracting := [0]
  rhsContracting := [0]
  lhsNonContracting := [1]
  rhsNonContracting := [1]
  lhsBatch := []
  rhsBatch := []
  wf := dot_S4096x64_S4096x2048_S64x2048_0_0_1_1_n_n_wf

abbrev win0_0 : Pipeline.Window sig grid0 :=
  Pipeline.Window.ofSpec (Memref.whole main_v32) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S1x4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1x64x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x6x41x16x44x64 : Shape := ⟨6, ![4, 6, 41, 16, 44, 64]⟩
abbrev S4x6x41x16x44x3 : Shape := ⟨6, ![4, 6, 41, 16, 44, 3]⟩
abbrev S692736x64 : Shape := ⟨2, ![692736, 64]⟩
abbrev S692736x3 : Shape := ⟨2, ![692736, 3]⟩
abbrev S4 : Shape := ⟨1, ![4]⟩
abbrev S4x173184 : Shape := ⟨2, ![4, 173184]⟩
abbrev S692736 : Shape := ⟨1, ![692736]⟩
abbrev S692736x1 : Shape := ⟨2, ![692736, 1]⟩
abbrev S_ : Shape := ⟨0, ![]⟩
abbrev S160000x64 : Shape := ⟨2, ![160000, 64]⟩
abbrev S4x200x200x1x64 : Shape := ⟨5, ![4, 200, 200, 1, 64]⟩
abbrev S4x64x1x200x200 : Shape := ⟨5, ![4, 64, 1, 200, 200]⟩
abbrev S4x64x200x200 : Shape := ⟨4, ![4, 64, 200, 200]⟩

abbrev nBuf : Space → Nat
  | .hbm => 77
  | .vmem => 0
  | .smem => 0
  | _ => 0

abbrev bufTy : (tb : Table) → Fin (tcTables nBuf tb) → BufTy
  | .hbm, ⟨0, _⟩ => ⟨S4x6x41x16x44x64, .f32⟩
  | .hbm, ⟨1, _⟩ => ⟨S4x6x41x16x44x3, .i32⟩
  | .hbm, ⟨2, _⟩ => ⟨S692736x64, .f32⟩
  | .hbm, ⟨3, _⟩ => ⟨S692736x3, .i32⟩
  | .hbm, ⟨4, _⟩ => ⟨S4, .i32⟩
  | .hbm, ⟨5, _⟩ => ⟨S4x173184, .i32⟩
  | .hbm, ⟨6, _⟩ => ⟨S692736, .i32⟩
  | .hbm, ⟨7, _⟩ => ⟨S692736x1, .i32⟩
  | .hbm, ⟨8, _⟩ => ⟨S692736, .i32⟩
  | .hbm, ⟨9, _⟩ => ⟨S_, .i32⟩
  | .hbm, ⟨10, _⟩ => ⟨S692736, .i32⟩
  | .hbm, ⟨11, _⟩ => ⟨S692736, .i1⟩
  | .hbm, ⟨12, _⟩ => ⟨S692736x1, .i32⟩
  | .hbm, ⟨13, _⟩ => ⟨S692736, .i32⟩
  | .hbm, ⟨14, _⟩ => ⟨S_, .i32⟩
  | .hbm, ⟨15, _⟩ => ⟨S692736, .i32⟩
  | .hbm, ⟨16, _⟩ => ⟨S692736, .i1⟩
  | .hbm, ⟨17, _⟩ => ⟨S692736, .i1⟩
  | .hbm, ⟨18, _⟩ => ⟨S692736x1, .i32⟩
  | .hbm, ⟨19, _⟩ => ⟨S692736, .i32⟩
  | .hbm, ⟨20, _⟩ => ⟨S_, .i32⟩
  | .hbm, ⟨21, _⟩ => ⟨S692736, .i32⟩
  | .hbm, ⟨22, _⟩ => ⟨S692736, .i1⟩
  | .hbm, ⟨23, _⟩ => ⟨S692736, .i1⟩
  | .hbm, ⟨24, _⟩ => ⟨S692736x1, .i32⟩
  | .hbm, ⟨25, _⟩ => ⟨S692736, .i32⟩
  | .hbm, ⟨26, _⟩ => ⟨S_, .i32⟩
  | .hbm, ⟨27, _⟩ => ⟨S692736, .i32⟩
  | .hbm, ⟨28, _⟩ => ⟨S692736, .i1⟩
  | .hbm, ⟨29, _⟩ => ⟨S692736, .i1⟩
  | .hbm, ⟨30, _⟩ => ⟨S692736x1, .i32⟩
  | .hbm, ⟨31, _⟩ => ⟨S692736, .i32⟩
  | .hbm, ⟨32, _⟩ => ⟨S_, .i32⟩
  | .hbm, ⟨33, _⟩ => ⟨S692736, .i32⟩
  | .hbm, ⟨34, _⟩ => ⟨S692736, .i1⟩
  | .hbm, ⟨35, _⟩ => ⟨S692736, .i1⟩
  | .hbm, ⟨36, _⟩ => ⟨S692736x1, .i32⟩
  | .hbm, ⟨37, _⟩ => ⟨S692736, .i32⟩
  | .hbm, ⟨38, _⟩ => ⟨S_, .i32⟩
  | .hbm, ⟨39, _⟩ => ⟨S692736, .i32⟩
  | .hbm, ⟨40, _⟩ => ⟨S692736, .i1⟩
  | .hbm, ⟨41, _⟩ => ⟨S692736, .i1⟩
  | .hbm, ⟨42, _⟩ => ⟨S692736x1, .i1⟩
  | .hbm, ⟨43, _⟩ => ⟨S_, .f32⟩
  | .hbm, ⟨44, _⟩ => ⟨S_, .f32⟩
  | .hbm, ⟨45, _⟩ => ⟨S692736x64, .i1⟩
  | .hbm, ⟨46, _⟩ => ⟨S692736x64, .f32⟩
  | .hbm, ⟨47, _⟩ => ⟨S692736x64, .f32⟩
  | .hbm, ⟨48, _⟩ => ⟨S_, .i32⟩
  | .hbm, ⟨49, _⟩ => ⟨S692736, .i32⟩
  | .hbm, ⟨50, _⟩ => ⟨S692736, .i32⟩
  | .hbm, ⟨51, _⟩ => ⟨S692736x1, .i32⟩
  | .hbm, ⟨52, _⟩ => ⟨S692736, .i32⟩
  | .hbm, ⟨53, _⟩ => ⟨S_, .i32⟩
  | .hbm, ⟨54, _⟩ => ⟨S692736, .i32⟩
  | .hbm, ⟨55, _⟩ => ⟨S692736, .i32⟩
  | .hbm, ⟨56, _⟩ => ⟨S692736, .i32⟩
  | .hbm, ⟨57, _⟩ => ⟨S692736x1, .i32⟩
  | .hbm, ⟨58, _⟩ => ⟨S692736, .i32⟩
  | .hbm, ⟨59, _⟩ => ⟨S_, .i32⟩
  | .hbm, ⟨60, _⟩ => ⟨S692736, .i32⟩
  | .hbm, ⟨61, _⟩ => ⟨S692736, .i32⟩
  | .hbm, ⟨62, _⟩ => ⟨S692736, .i32⟩
  | .hbm, ⟨63, _⟩ => ⟨S692736x1, .i32⟩
  | .hbm, ⟨64, _⟩ => ⟨S692736, .i32⟩
  | .hbm, ⟨65, _⟩ => ⟨S692736, .i32⟩
  | .hbm, ⟨66, _⟩ => ⟨S_, .i32⟩
  | .hbm, ⟨67, _⟩ => ⟨S_, .i32⟩
  | .hbm, ⟨68, _⟩ => ⟨S692736, .i32⟩
  | .hbm, ⟨69, _⟩ => ⟨S692736, .i32⟩
  | .hbm, ⟨70, _⟩ => ⟨S_, .f32⟩
  | .hbm, ⟨71, _⟩ => ⟨S160000x64, .f32⟩
  | .hbm, ⟨72, _⟩ => ⟨S692736x1, .i32⟩
  | .hbm, ⟨73, _⟩ => ⟨S160000x64, .f32⟩
  | .hbm, ⟨74, _⟩ => ⟨S4x200x200x1x64, .f32⟩
  | .hbm, ⟨75, _⟩ => ⟨S4x64x1x200x200, .f32⟩
  | .hbm, ⟨76, _⟩ => ⟨S4x64x200x200, .f32⟩
  | _, _ => ⟨S4x6x41x16x44x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_3 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c_4 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v35 : Ref sig .tc := ⟨.hbm, 47, rfl⟩
abbrev main_c_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_8 : Ref sig .tc := ⟨.hbm, 66, rfl⟩
abbrev main_call1_v0 : Ref sig .tc := ⟨.hbm, 67, rfl⟩
abbrev main_call1_v1 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]

class Facts₀ : Prop where
  shapeCasts_S4x6x41x16x44x64_S692736x64 : S4x6x41x16x44x64.ShapeCasts S692736x64
  shapeCasts_S4x6x41x16x44x3_S692736x3 : S4x6x41x16x44x3.ShapeCasts S692736x3
  bcast_S4_S4x173184_0 : S4.BroadcastsInDim S4x173184 (![0] : Fin 1 → Fin S4x173184.rank)
  shapeCasts_S4x173184_S692736 : S4x173184.ShapeCasts S692736
  slices_S692736x3_S692736x1_0_0 : S692736x3.Slices ![0, 0] S692736x1
  shapeCasts_S692736x1_S692736 : S692736x1.ShapeCasts S692736
  bcast_S_S692736 : S_.BroadcastsInDim S692736 (![] : Fin 0 → Fin S692736.rank)
  slices_S692736x3_S692736x1_0_1 : S692736x3.Slices ![0, 1] S692736x1
  slices_S692736x3_S692736x1_0_2 : S692736x3.Slices ![0, 2] S692736x1
  bcast_S692736_S692736x1_0 : S692736.BroadcastsInDim S692736x1 (![0] : Fin 1 → Fin S692736x1.rank)
  bcast_S692736x1_S692736x64_0_1 : S692736x1.BroadcastsInDim S692736x64 (![0, 1] : Fin 2 → Fin S692736x64.rank)
  bcast_S_S692736x64 : S_.BroadcastsInDim S692736x64 (![] : Fin 0 → Fin S692736x64.rank)
  bcast_S_S160000x64 : S_.BroadcastsInDim S160000x64 (![] : Fin 0 → Fin S160000x64.rank)
  shapeCasts_S160000x64_S4x200x200x1x64 : S160000x64.ShapeCasts S4x200x200x1x64
  transposes_S4x200x200x1x64_S4x64x1x200x200_0_4_3_1_2 : S4x200x200x1x64.Transposes [0, 4, 3, 1, 2] S4x64x1x200x200
  shapeCasts_S4x64x1x200x200_S4x64x200x200 : S4x64x1x200x200.ShapeCasts S4x64x200x200
  scatter_S160000x64_S692736x1_S692736x64_1_0_0_1_wf : ScatterDims.WF S160000x64 S692736x1 S692736x64 [1] [0] [0] 1

variable [Facts₀]

def scatter_S160000x64_S692736x1_S692736x64_1_0_0_1 : ScatterDims S160000x64 S692736x1 S692736x64 where
  updateWindowDims := [1]
  insertedWindowDims := [0]
  scatterDimsToOperandDims := [0]
  indexVectorDim := 1
  wf := scatter_S160000x64_S692736x1_S692736x64_1_0_0_1_wf

class Facts : Prop extends Facts₀ where

variable [Facts]
-- ==== Proof.KCase.lean ====
/-
  What one run of the kernel body leaves behind, as values. The body keeps a running total in a scratch block: at a
  tile-0 point it first stores the zero block there, and at every point it then stores "total + this tile's product"
  and copies the new total into the output block. So after the body the scratch holds `k0_pay2 … (previous total)`
  — with the zero block `k0_pay1` as the previous total at a tile-0 point — and the output block holds that, re-laid.
-/
import proofs.«416935_j79121887526974_1_alg».proof.Proof.Gen.KernelIdeal.Frame
import Idealize.ShloMosaic.Lib.Pipeline.Value
import Idealize.ShloMosaic.Lib.Tactic

noncomputable section

namespace Cert.KernelIdeal.Hand

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that is not at tile 0: the scratch, holding the total `acc`, ends at the update of `acc`. -/
theorem sout_B (c : Dev nD) (i : grid0.Coords) (a3 : Memref sig .tc .vmem S1x4096x64 .bf16) (h3 : a3.IsWhole) (a4 : Memref sig .tc .vmem S1x4096x1 .i32) (h4 : a4.IsWhole) (a5 : Memref sig .tc .vmem S1x64x2048 .f32) (h5 : a5.IsWhole) (a6 : Memref sig .tc .vmem S64x2048 .f32) (h6 : a6.IsWhole) (hc : ¬cond0_0 i)
    (x0 : Vec F S1x4096x64 .bf16) (x1 : Vec F S1x4096x1 .i32) (acc : Vec F S64x2048 .f32) :
    sout0_B_0 c i a3 h3 a4 h4 a5 h5 a6 h6 hc x0 x1 acc = k0_pay2 i x0 x1 acc := by
  unfold sout0_B_0
  rw [View.read_writes_eq_canon _ _ _ (scover0_B_0 c i a3 h3 a4 h4 a5 h5 a6 h6 hc x0 x1 acc)]
  unfold kernelRun0_B
  dsimp only
  sl_unfold_words
  rw [View.canon_unit_zero hz2]
  simp only [View.readAt_eq_ld, h3.read_unread, h4.read_unread, h6.read_unread,
    View.ld_unit_zero (S := S1x4096x64) hz3, View.ld_unit_zero (S := S1x4096x1) hz3,
    View.ld_unit_zero (S := S64x2048) hz2]

/-- … and the output block at the new total, re-laid. -/
theorem out_B (c : Dev nD) (i : grid0.Coords) (a3 : Memref sig .tc .vmem S1x4096x64 .bf16) (h3 : a3.IsWhole) (a4 : Memref sig .tc .vmem S1x4096x1 .i32) (h4 : a4.IsWhole) (a5 : Memref sig .tc .vmem S1x64x2048 .f32) (h5 : a5.IsWhole) (a6 : Memref sig .tc .vmem S64x2048 .f32) (h6 : a6.IsWhole) (hc : ¬cond0_0 i)
    (x0 : Vec F S1x4096x64 .bf16) (x1 : Vec F S1x4096x1 .i32) (acc : Vec F S64x2048 .f32) :
    out0_B_2 c i a3 h3 a4 h4 a5 h5 a6 h6 hc x0 x1 acc = k0_pay3 (k0_pay2 i x0 x1 acc) := by
  unfold out0_B_2
  rw [View.read_writes_eq_canon _ _ _ (cover0_B_2 c i a3 h3 a4 h4 a5 h5 a6 h6 hc x0 x1 acc)]
  unfold kernelRun0_B
  dsimp only
  sl_unfold_words
  rw [View.canon_unit_zero (S := S1x64x2048) hz3, View.readCov_unit_zero (S := S64x2048) _ hz2]
  simp only [View.readAt_eq_ld, h3.read_unread, h4.read_unread, h6.read_unread,
    View.ld_unit_zero (S := S1x4096x64) hz3, View.ld_unit_zero (S := S1x4096x1) hz3,
    View.ld_unit_zero (S := S64x2048) hz2]

/-- A tile-0 point: the scratch is reset to the zero block first, so it ends at the update of the zero block. -/
theorem sout_A (c : Dev nD) (i : grid0.Coords) (a3 : Memref sig .tc .vmem S1x4096x64 .bf16) (h3 : a3.IsWhole) (a4 : Memref sig .tc .vmem S1x4096x1 .i32) (h4 : a4.IsWhole) (a5 : Memref sig .tc .vmem S1x64x2048 .f32) (h5 : a5.IsWhole) (a6 : Memref sig .tc .vmem S64x2048 .f32) (h6 : a6.IsWhole) (hc : cond0_0 i)
    (x0 : Vec F S1x4096x64 .bf16) (x1 : Vec F S1x4096x1 .i32) :
    sout0_A_0 c i a3 h3 a4 h4 a5 h5 a6 h6 hc x0 x1 = k0_pay2 i x0 x1 k0_pay1 := by
  unfold sout0_A_0
  rw [View.read_writes_eq_canon _ _ _ (scover0_A_0 c i a3 h3 a4 h4 a5 h5 a6 h6 hc x0 x1)]
  unfold kernelRun0_A
  dsimp only
  sl_unfold_words
  rw [View.canon_cons_unit_zero (S := S64x2048) hz2, View.readCov_unit_zero (S := S64x2048) _ hz2]
  simp only [View.readAt_eq_ld, h3.read_unread, h4.read_unread,
    View.ld_unit_zero (S := S1x4096x64) hz3, View.ld_unit_zero (S := S1x4096x1) hz3]

/-- … and the output block at that, re-laid. -/
theorem out_A (c : Dev nD) (i : grid0.Coords) (a3 : Memref sig .tc .vmem S1x4096x64 .bf16) (h3 : a3.IsWhole) (a4 : Memref sig .tc .vmem S1x4096x1 .i32) (h4 : a4.IsWhole) (a5 : Memref sig .tc .vmem S1x64x2048 .f32) (h5 : a5.IsWhole) (a6 : Memref sig .tc .vmem S64x2048 .f32) (h6 : a6.IsWhole) (hc : cond0_0 i)
    (x0 : Vec F S1x4096x64 .bf16) (x1 : Vec F S1x4096x1 .i32) :
    out0_A_2 c i a3 h3 a4 h4 a5 h5 a6 h6 hc x0 x1 = k0_pay3 (k0_pay2 i x0 x1 k0_pay1) := by
  unfold out0_A_2
  rw [View.read_writes_eq_canon _ _ _ (cover0_A_2 c i a3 h3 a4 h4 a5 h5 a6 h6 hc x0 x1)]
  unfold kernelRun0_A
  dsimp only
  sl_unfold_words
  rw [View.canon_unit_zero (S := S1x64x2048) hz3, View.readCov_cons_toLoadRect,
    View.readCov_unit_zero (S := S64x2048) _ hz2]
  simp only [View.readAt_eq_ld, h3.read_unread, h4.read_unread,
    View.ld_unit_zero (S := S1x4096x64) hz3, View.ld_unit_zero (S := S1x4096x1) hz3]

end Cert.KernelIdeal.Hand

end
-- ==== Proof.KAcc.lean ====
/-
  The running total after each grid point. The 3440 points run batch-major, then voxel tile, then point tile (43 per
  voxel tile), so a point's position n has point tile n mod 43. At point tile 0 the total restarts from the zero block;
  otherwise it continues from the point before. The frame's per-point contents are this total (in the scratch) and its
  re-laid copy (in the output block) — by induction on the point, never by enumerating the grid.
-/
import proofs.«416935_j79121887526974_1_alg».proof.Proof.KCase

noncomputable section

namespace Cert.KernelIdeal.Hand

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The two operand blocks of point t, at their literal types. -/
abbrev fblk (c : Dev nD) (t : Fin cfg0.N) : Vec F S1x4096x64 .bf16 := iblk m c 0 t
abbrev iblkW (c : Dev nD) (t : Fin cfg0.N) : Vec F S1x4096x1 .i32 := iblk m c 1 t

/-- The running total after the point at position n. -/
def total (c : Dev nD) : (n : ℕ) → n < cfg0.N → Vec F S64x2048 .f32
  | 0, h => k0_pay2 (grid0.coords ⟨0, h⟩) (fblk m c ⟨0, h⟩) (iblkW m c ⟨0, h⟩) k0_pay1
  | n + 1, h =>
    if (n + 1) % 43 = 0 then k0_pay2 (grid0.coords ⟨n + 1, h⟩) (fblk m c ⟨n + 1, h⟩) (iblkW m c ⟨n + 1, h⟩) k0_pay1
    else k0_pay2 (grid0.coords ⟨n + 1, h⟩) (fblk m c ⟨n + 1, h⟩) (iblkW m c ⟨n + 1, h⟩) (total c n (Nat.lt_of_succ_lt h))

/-- At point tile 0 the total restarts. -/
theorem total_reset (c : Dev nD) (t : Fin cfg0.N) (h0 : t.val % 43 = 0) :
    total m c t.val t.isLt = k0_pay2 (grid0.coords t) (fblk m c t) (iblkW m c t) k0_pay1 := by
  obtain ⟨n, hn⟩ := t
  cases n with
  | zero => rfl
  | succ n => exact if_pos h0

/-- Elsewhere it continues from the point before. -/
theorem total_step (c : Dev nD) (t : Fin cfg0.N) (h0 : ¬t.val % 43 = 0) :
    total m c t.val t.isLt = k0_pay2 (grid0.coords t) (fblk m c t) (iblkW m c t)
      (total m c (t.val - 1) (Nat.lt_of_le_of_lt (Nat.sub_le _ _) t.isLt)) := by
  obtain ⟨n, hn⟩ := t
  cases n with
  | zero => exact absurd (Nat.zero_mod _) h0
  | succ n => exact if_neg h0

/-- What the frame says the output block and the scratch hold after position n: the total re-laid, and the total. -/
theorem outsAt_eq (c : Dev nD) : ∀ (n : ℕ) (h : n < cfg0.N), outsAt0 m c n h = (k0_pay3 (total m c n h), total m c n h)
  | 0, h => by
    rw [outsAt0_A m c ⟨0, h⟩ rfl, out_A, sout_A]
    rfl
  | n + 1, h => by
    by_cases h0 : (n + 1) % 43 = 0
    · rw [outsAt0_A m c ⟨n + 1, h⟩ h0, out_A, sout_A, total_reset m c ⟨n + 1, h⟩ h0]
    · rw [outsAt0_B m c ⟨n + 1, h⟩ h0, out_B, sout_B, total_step m c ⟨n + 1, h⟩ h0]
      have e : (outsAt0 m c n (Nat.lt_of_succ_lt h)).2 = total m c n (Nat.lt_of_succ_lt h) := by
        rw [outsAt_eq c n (Nat.lt_of_succ_lt h)]
      exact congrArg (fun a => (k0_pay3 (k0_pay2 (grid0.coords ⟨n + 1, h⟩) (fblk m c ⟨n + 1, h⟩) (iblkW m c ⟨n + 1, h⟩) a),
        k0_pay2 (grid0.coords ⟨n + 1, h⟩) (fblk m c ⟨n + 1, h⟩) (iblkW m c ⟨n + 1, h⟩) a)) e

end Cert.KernelIdeal.Hand

end
-- ==== Proof.Pool.lean ====
/-
  Voxel pooling as ONE sum. A batch holds 173184 points; point p carries 64 features and three integer voxel
  coordinates (g0, g1, g2). A point is KEPT when 0 ≤ g0 < 200, 0 ≤ g1 < 200 and 0 ≤ g2 < 1; a kept point's voxel is
  g0·200 + g1 (below 40000). The pooled value of batch b, feature ch, voxel v is the sum of feature ch over the kept
  points of batch b whose voxel is v. Everything here is stated over the two argument arrays re-laid as [4, 173184, 64]
  and [4, 173184, 3]; no program is imported.

  Two arrangements of that sum are proved equal to it:
    • the tiled one-hot product (43 tiles of 4096 points, padded by 2944 zero points, each tile's partial sum added
      to a running total that starts from 0), and
    • the segment sum over all 4·173184 points keyed by b·40000 + g0·200 + g1·1 + g2 (an unkept point's key is 0
      and its features are replaced by 0).
  Over the extended reals addition is commutative and associative and 0·x = 0 for every x, so neither equation
  needs the inputs finite.
-/
import Idealize.ShloMosaic.PureOps.Ideal
import Idealize.ShloMosaic.PureOps.Ideal.Laws
import Idealize.ShloMosaic.Lib.ValueIdx
import Idealize.ShloMosaic.Lib.StableHlo.Predicate

noncomputable section

open scoped BigOperators

namespace Cert.Pool

open Idealize.ShloMosaic Idealize.ShloMosaic.ValueIdx

/-- The features as [batch, point, feature]. -/
abbrev X3 : Shape := ⟨3, ![4, 173184, 64]⟩
/-- The voxel coordinates as [batch, point, coordinate]. -/
abbrev G3 : Shape := ⟨3, ![4, 173184, 3]⟩
/-- The pooled grid [batch, feature, x, y]. -/
abbrev O4 : Shape := ⟨4, ![4, 64, 200, 200]⟩

/-- The two argument arrays' shapes, [4, 6, 41, 16, 44, ·]: the points of a batch in row-major order are its 173184 points. -/
abbrev A0 : Shape := ⟨6, ![4, 6, 41, 16, 44, 64]⟩
abbrev A1 : Shape := ⟨6, ![4, 6, 41, 16, 44, 3]⟩
theorem castX : A0.ShapeCasts X3 := by decide
theorem castG : A1.ShapeCasts G3 := by decide
/-- The feature argument re-laid as [batch, point, feature] (same row-major order). -/
abbrev xsOf (x0 : A0.Idx → EReal) : X3.Idx → EReal := shapeCast X3 x0 castX
/-- The coordinate argument re-laid as [batch, point, coordinate]. -/
abbrev gsOf (x1 : A1.Idx → BitVec 32) : G3.Idx → BitVec 32 := shapeCast G3 x1 castG

/-- The six range tests on a point's coordinates, conjoined, as the one-bit word both programs compute. -/
def keptW (g0 g1 g2 : BitVec 32) : BitVec 1 :=
  IntOp.andi (IntOp.andi (IntOp.andi (IntOp.andi (IntOp.andi
    (IntOp.cmpi .sge g0 0#32) (IntOp.cmpi .slt g0 200#32))
    (IntOp.cmpi .sge g1 0#32)) (IntOp.cmpi .slt g1 200#32))
    (IntOp.cmpi .sge g2 0#32)) (IntOp.cmpi .slt g2 1#32)

/-- A conjunction of two one-bit words is 1 exactly when both are. -/
private theorem andi_eq_one_iff (x y : BitVec 1) : IntOp.andi x y = 1#1 ↔ x = 1#1 ∧ y = 1#1 := by
  unfold IntOp.andi
  rcases BitVec.eq_zero_or_eq_one x with rfl | rfl <;> rcases BitVec.eq_zero_or_eq_one y with rfl | rfl <;> decide

/-- The signed value of a 32-bit word: its unsigned value, less 2³² when the top bit is set. -/
private theorem toInt_cases (g : BitVec 32) :
    (g.toNat < 2147483648 ∧ g.toInt = (g.toNat : ℤ)) ∨ (2147483648 ≤ g.toNat ∧ g.toInt = (g.toNat : ℤ) - 4294967296) := by
  have hlt : g.toNat < 4294967296 := g.isLt
  rw [BitVec.toInt_eq_toNat_cond]
  split <;> omega

/-- Signed 0 ≤ g < 200 is unsigned g < 200: a negative word fails the first test and reads unsigned as 2³¹ or more. -/
private theorem below200_iff (g : BitVec 32) :
    IntOp.cmpi .sge g 0#32 = 1#1 ∧ IntOp.cmpi .slt g 200#32 = 1#1 ↔ g.toNat < 200 := by
  have h0 : (0#32 : BitVec 32).toInt = 0 := by decide
  have h200 : (200#32 : BitVec 32).toInt = 200 := by decide
  simp only [IntOp.cmpi, StableHlo.Predicate.ofBool_eq_one_iff, BitVec.sle_iff_toInt_le, BitVec.slt_iff_toInt_lt, h0, h200]
  rcases toInt_cases g with ⟨_, h⟩ | ⟨_, h⟩ <;> omega

/-- Signed 0 ≤ g < 1 is g = 0. -/
private theorem below1_iff (g : BitVec 32) :
    IntOp.cmpi .sge g 0#32 = 1#1 ∧ IntOp.cmpi .slt g 1#32 = 1#1 ↔ g = 0#32 := by
  have h0 : (0#32 : BitVec 32).toInt = 0 := by decide
  have h1 : (1#32 : BitVec 32).toInt = 1 := by decide
  simp only [IntOp.cmpi, StableHlo.Predicate.ofBool_eq_one_iff, BitVec.sle_iff_toInt_le, BitVec.slt_iff_toInt_lt, h0, h1]
  rw [← BitVec.toNat_inj, BitVec.toNat_ofNat]
  rcases toInt_cases g with ⟨_, h⟩ | ⟨_, h⟩ <;> omega

/-- A point is kept exactly when its first two coordinates are below 200 (read unsigned: that excludes the negatives
    too) and its third is 0. -/
theorem keptW_iff (g0 g1 g2 : BitVec 32) :
    keptW g0 g1 g2 = 1#1 ↔ g0.toNat < 200 ∧ g1.toNat < 200 ∧ g2 = 0#32 := by
  unfold keptW
  simp only [andi_eq_one_iff]
  constructor
  · rintro ⟨⟨⟨⟨⟨a, b⟩, c⟩, d⟩, e⟩, f⟩
    exact ⟨(below200_iff g0).mp ⟨a, b⟩, (below200_iff g1).mp ⟨c, d⟩, (below1_iff g2).mp ⟨e, f⟩⟩
  · rintro ⟨h0, h1, h2⟩
    obtain ⟨a, b⟩ := (below200_iff g0).mpr h0
    obtain ⟨c, d⟩ := (below200_iff g1).mpr h1
    obtain ⟨e, f⟩ := (below1_iff g2).mpr h2
    exact ⟨⟨⟨⟨⟨a, b⟩, c⟩, d⟩, e⟩, f⟩

/-- Point p of batch b is kept. -/
def keptAt (gs : G3.Idx → BitVec 32) (b : Fin 4) (p : Fin 173184) : BitVec 1 :=
  keptW (gs (ix3 b p (0 : Fin 3))) (gs (ix3 b p (1 : Fin 3))) (gs (ix3 b p (2 : Fin 3)))

/-- The voxel of point p of batch b, as a natural number: g0·200 + g1. -/
def voxAt (gs : G3.Idx → BitVec 32) (b : Fin 4) (p : Fin 173184) : ℕ :=
  (gs (ix3 b p (0 : Fin 3))).toNat * 200 + (gs (ix3 b p (1 : Fin 3))).toNat

/-- THE POOLED VALUE of batch b, feature ch, voxel v: feature ch summed over the kept points of the batch whose voxel
    is v. -/
def pool (xs : X3.Idx → EReal) (gs : G3.Idx → BitVec 32) (b : Fin 4) (ch : Fin 64) (v : ℕ) : EReal :=
  ∑ p : Fin 173184, if keptAt gs b p = 1#1 ∧ voxAt gs b p = v then xs (ix3 b p ch) else 0

/-- The pooled grid: entry (b, ch, x, y) is the pooled value at voxel x·200 + y. -/
def pooled (xs : X3.Idx → EReal) (gs : G3.Idx → BitVec 32) : O4.Idx → EReal :=
  fun j => pool xs gs (j 0) (j 1) ((j 2).val * 200 + (j 3).val)

/-! ## The tiled one-hot product -/

/-- The weight a point with voxel word `a` gets in the one-hot column of voxel word `w`: the compare's bit, widened to
    32 bits and converted to a float — 1 when the words are equal, else 0. -/
def hot (a w : BitVec 32) : EReal := ((((IntOp.cmpi .eq a w).setWidth 32).toInt : ℝ) : EReal)

theorem hot_eq (a w : BitVec 32) : hot a w = if a = w then 1 else 0 := by
  unfold hot
  by_cases h : a = w
  · have hc : IntOp.cmpi .eq a w = 1#1 := StableHlo.Predicate.cmpi_eq_iff.mpr h
    have h1 : ((1#1 : BitVec 1).setWidth 32).toInt = 1 := by decide
    rw [hc, if_pos h, h1]
    simp
  · have hc : IntOp.cmpi .eq a w = 0#1 := eq_zero_of_ne_one (fun h' => h (StableHlo.Predicate.cmpi_eq_iff.mp h'))
    have h0 : ((0#1 : BitVec 1).setWidth 32).toInt = 0 := by decide
    rw [hc, if_neg h, h0]
    simp

/-- Feature ch of padded point q of batch b: a real point's feature if it is kept, 0 if it is not, 0 past the last
    real point. -/
def featP (xs : X3.Idx → EReal) (gs : G3.Idx → BitVec 32) (b : Fin 4) (q : ℕ) (ch : Fin 64) : EReal :=
  if h : q < 173184 then Scalar.select (keptAt gs b ⟨q, h⟩) (xs (ix3 b ⟨q, h⟩ ch)) 0 else 0

/-- The voxel word of padded point q of batch b: g0·200 + g1 (32-bit arithmetic) if the point is real and kept, else 0. -/
def idxP (gs : G3.Idx → BitVec 32) (b : Fin 4) (q : ℕ) : BitVec 32 :=
  if h : q < 173184 then
    Scalar.select (keptAt gs b ⟨q, h⟩)
      (IntOp.addi (IntOp.muli (gs (ix3 b ⟨q, h⟩ (0 : Fin 3))) 200#32) (gs (ix3 b ⟨q, h⟩ (1 : Fin 3)))) 0#32
  else 0#32

/-- Tile pt's contribution to voxel word w: its 4096 points' features against the one-hot column. -/
def tile (xs : X3.Idx → EReal) (gs : G3.Idx → BitVec 32) (b : Fin 4) (ch : Fin 64) (w : BitVec 32) (pt : ℕ) : EReal :=
  ∑ k : Fin 4096, featP xs gs b (pt * 4096 + k.val) ch * hot (idxP gs b (pt * 4096 + k.val)) w

/-- A running total that starts from 0 at step 0 and adds one term per step. -/
def chain (f : ℕ → EReal) : ℕ → EReal
  | 0 => 0 + f 0
  | n + 1 => chain f n + f (n + 1)

theorem chain_eq_sum (f : ℕ → EReal) (n : ℕ) : chain f n = ∑ i ∈ Finset.range (n + 1), f i := by
  induction n with
  | zero => simp [chain]
  | succ n ih => rw [chain, ih, Finset.sum_range_succ _ (n + 1)]

/-! ## The segment sum -/

/-- The segment key of point p of batch b: b·40000 + g0·200 + g1·1 + g2 (32-bit arithmetic) if the point is kept, else 0. -/
def segW (gs : G3.Idx → BitVec 32) (b : Fin 4) (p : Fin 173184) : BitVec 32 :=
  Scalar.select (keptAt gs b p)
    (IntOp.addi (IntOp.addi (IntOp.addi (IntOp.muli (BitVec.ofNat 32 b.val) 40000#32)
      (IntOp.muli (gs (ix3 b p (0 : Fin 3))) 200#32)) (IntOp.muli (gs (ix3 b p (1 : Fin 3))) 1#32)) (gs (ix3 b p (2 : Fin 3))))
    0#32

/-- Feature ch of point p of batch b as the segment sum takes it: 0 if the point is not kept. -/
def featR (xs : X3.Idx → EReal) (gs : G3.Idx → BitVec 32) (b : Fin 4) (p : Fin 173184) (ch : Fin 64) : EReal :=
  Scalar.select (keptAt gs b p) (xs (ix3 b p ch)) 0

end Cert.Pool

end
-- ==== Proof.KHost.lean ====
/-
  What the kernel's two operands hold when the region is entered, read at an index: the features masked by the range
  tests, padded by 2944 zero points per batch; the voxel words masked the same way, padded by zeros.
-/
import proofs.«416935_j79121887526974_1_alg».proof.Proof.Gen.KernelIdeal.Frame.Runs
import proofs.«416935_j79121887526974_1_alg».proof.Proof.Pool
import Idealize.ShloMosaic.Lib.Pipeline.Value
import Idealize.ShloMosaic.Lib.StableHlo.Run
import Idealize.ShloMosaic.Lib.KernelVsHost

noncomputable section

namespace Cert.KernelIdeal.Hand

open Cert.KernelIdeal Cert.KernelIdeal.Gen Idealize.ShloMosaic Idealize.ShloMosaic.TcCoe Idealize.ShloMosaic.ValueIdx Idealize.SL.Sem

/-! ## The host operations as functions of the two re-laid arguments

Each array the host operations build is written once as a function of the coordinates g ([4, 173184, 3]) and the
features x ([4, 173184, 64]), spelt with the operations the program applies, and then read at an index. -/

section Pure

variable (g : Cert.Pool.G3.Idx → BitVec 32) (x : Cert.Pool.X3.Idx → EReal)

/-- One coordinate of every point: the slice [:, :, k : k+1] of the coordinates with its unit axis dropped. -/
private def coord (off : Fin 3 → ℕ) (h : S4x173184x3.Slices off S4x173184x1) : IVec S4x173184 32 :=
  shapeCast S4x173184 (extractStridedSlice S4x173184x1 off g h) shapeCasts_S4x173184x1_S4x173184

/-- Read at (b, p) it is coordinate k of point p of batch b: the two row-major positions agree (the dropped axis has
    extent 1) and the slice shifts the last coordinate by k. -/
private theorem coord_apply (off : Fin 3 → ℕ) (h : S4x173184x3.Slices off S4x173184x1) (b : Fin 4) (p : Fin 173184)
    (k : Fin 3) (h0 : off 0 = 0) (h1 : off 1 = 0) (h2 : off 2 = k.val) :
    coord g off h (ix2 b p) = g (ix3 b p k) := by
  unfold coord
  refine (shapeCast_apply _ _ (ix2 b p) (ix3 b p (0 : Fin 1)) ?_).trans ?_
  · rw [Shape.rowMajor_val_three, Shape.rowMajor_val_two]
    show (b.val * 173184 + p.val) * 1 + 0 = b.val * 173184 + p.val
    omega
  · refine extractStridedSlice_apply off g h (ix3 b p (0 : Fin 1)) (ix3 b p k) ?_
    intro a
    match a with
    | ⟨0, _⟩ => show b.val = off 0 + b.val; omega
    | ⟨1, _⟩ => show p.val = off 1 + p.val; omega
    | ⟨2, _⟩ => show k.val = off 2 + 0; omega

/-- A word broadcast to every point. -/
private abbrev splat (w : BitVec 32) : IVec S4x173184 32 :=
  broadcastInDim S4x173184 ![] bcast_S_S4x173184 (constantI S_ 32 w)

/-- The six range tests conjoined, for every point. -/
private def kept24 : IVec S4x173184 1 :=
  andi (andi (andi (andi (andi
    (cmpi .sge (coord g ![0, 0, 0] slices_S4x173184x3_S4x173184x1_0_0_0) (splat 0#32))
    (cmpi .slt (coord g ![0, 0, 0] slices_S4x173184x3_S4x173184x1_0_0_0) (splat 200#32)))
    (cmpi .sge (coord g ![0, 0, 1] slices_S4x173184x3_S4x173184x1_0_0_1) (splat 0#32)))
    (cmpi .slt (coord g ![0, 0, 1] slices_S4x173184x3_S4x173184x1_0_0_1) (splat 200#32)))
    (cmpi .sge (coord g ![0, 0, 2] slices_S4x173184x3_S4x173184x1_0_0_2) (splat 0#32)))
    (cmpi .slt (coord g ![0, 0, 2] slices_S4x173184x3_S4x173184x1_0_0_2) (splat 1#32))

/-- At (b, p): point p of batch b is kept. The elementwise operations and the broadcast constants read through by
    definition; the three coordinates by coord_apply. -/
private theorem kept24_apply (b : Fin 4) (p : Fin 173184) : kept24 g (ix2 b p) = Cert.Pool.keptAt g b p := by
  have h : kept24 g (ix2 b p)
      = Cert.Pool.keptW (coord g ![0, 0, 0] slices_S4x173184x3_S4x173184x1_0_0_0 (ix2 b p))
          (coord g ![0, 0, 1] slices_S4x173184x3_S4x173184x1_0_0_1 (ix2 b p))
          (coord g ![0, 0, 2] slices_S4x173184x3_S4x173184x1_0_0_2 (ix2 b p)) := rfl
  rw [h, coord_apply g ![0, 0, 0] _ b p 0 rfl rfl rfl, coord_apply g ![0, 0, 1] _ b p 1 rfl rfl rfl, coord_apply g ![0, 0, 2] _ b p 2 rfl rfl rfl]
  rfl

/-- The features with the unkept points' replaced by 0.0. -/
private def feat26 : S4x173184x64.Idx → EReal :=
  select
    (broadcastInDim S4x173184x64 ![0, 1, 2] bcast_S4x173184x1_S4x173184x64_0_1_2
      (broadcastInDim S4x173184x1 ![0, 1] bcast_S4x173184_S4x173184x1_0_1 (kept24 g)))
    x
    (broadcastInDim S4x173184x64 ![] bcast_S_S4x173184x64 (constant (F := Ideal) S_ .f32 0x00000000#32))

/-- The kept bit broadcast along the features reads, at (b, p, ch), the bit of point p of batch b. -/
private theorem keptB_apply (b : Fin 4) (p : Fin 173184) (ch : Fin 64) :
    broadcastInDim S4x173184x64 ![0, 1, 2] bcast_S4x173184x1_S4x173184x64_0_1_2
      (broadcastInDim S4x173184x1 ![0, 1] bcast_S4x173184_S4x173184x1_0_1 (kept24 g)) (ix3 b p ch)
      = Cert.Pool.keptAt g b p := by
  refine (broadcastInDim_apply _ _ _ (ix3 b p ch) (ix3 b p (0 : Fin 1)) ?_).trans ?_
  · intro a
    match a with
    | ⟨0, _⟩ => rfl
    | ⟨1, _⟩ => rfl
    | ⟨2, _⟩ => rfl
  refine (broadcastInDim_apply _ _ _ (ix3 b p (0 : Fin 1)) (ix2 b p) ?_).trans (kept24_apply g b p)
  intro a
  match a with
  | ⟨0, _⟩ => rfl
  | ⟨1, _⟩ => rfl

private theorem feat26_apply (b : Fin 4) (p : Fin 173184) (ch : Fin 64) :
    feat26 g x (ix3 b p ch) = Scalar.select (Cert.Pool.keptAt g b p) (x (ix3 b p ch)) 0 := by
  have h : feat26 g x (ix3 b p ch)
      = Scalar.select (broadcastInDim S4x173184x64 ![0, 1, 2] bcast_S4x173184x1_S4x173184x64_0_1_2
          (broadcastInDim S4x173184x1 ![0, 1] bcast_S4x173184_S4x173184x1_0_1 (kept24 g)) (ix3 b p ch))
          (x (ix3 b p ch)) (Ideal.ofBits .f32 0x00000000#32) := rfl
  rw [h, keptB_apply, Ideal.ofBits_zero_f32]

/-- The first operand: the masked features padded by 2944 points of (the integer 0 converted), its format narrowed. -/
private def feat32 : S4x176128x64.Idx → EReal :=
  truncf (F := Ideal) .bf16
    (pad S4x176128x64 ![0, 0, 0] ![0, 2944, 0] ![0, 0, 0] (feat26 g x)
      (sitofp (F := Ideal) .f32 (constantI S_ 32 0#32)) pads_S4x173184x64_S4x176128x64_000_029440_000 h_S_)
    bitsLt_bf16_f32

private theorem feat32_apply (b : Fin 4) (q : Fin 176128) (ch : Fin 64) :
    feat32 g x (ix3 b q ch) = Cert.Pool.featP x g b q.val ch := by
  have h : feat32 g x (ix3 b q ch)
      = pad S4x176128x64 ![0, 0, 0] ![0, 2944, 0] ![0, 0, 0] (feat26 g x)
          (sitofp (F := Ideal) .f32 (constantI S_ 32 0#32)) pads_S4x173184x64_S4x176128x64_000_029440_000 h_S_ (ix3 b q ch) := rfl
  rw [h]
  unfold Cert.Pool.featP
  by_cases hq : q.val < 173184
  · rw [dif_pos hq]
    refine (pad_apply_of_inside _ _ _ _ _ _ _ (ix3 b q ch) (ix3 b (⟨q.val, hq⟩ : Fin 173184) ch) ?_).trans
      (feat26_apply g x b ⟨q.val, hq⟩ ch)
    intro a
    match a with
    | ⟨0, _⟩ => show b.val = 0 + b.val * (0 + 1); omega
    | ⟨1, _⟩ => show q.val = 0 + q.val * (0 + 1); omega
    | ⟨2, _⟩ => show ch.val = 0 + ch.val * (0 + 1); omega
  · rw [dif_neg hq]
    refine (pad_apply_of_not_inside _ _ _ _ _ _ _ (ix3 b q ch) (1 : Fin 3) ?_).trans ?_
    · intro hh
      have h3 : (q.val - 0) / (0 + 1) < 173184 := hh.2.2
      omega
    · show ((((0#32 : BitVec 32).toInt : ℤ) : ℝ) : EReal) = 0
      simp

/-- The voxel word of every point, 0 for an unkept one. -/
private def idx30 : IVec S4x173184 32 :=
  select (kept24 g)
    (addi (muli (coord g ![0, 0, 0] slices_S4x173184x3_S4x173184x1_0_0_0) (splat 200#32))
      (coord g ![0, 0, 1] slices_S4x173184x3_S4x173184x1_0_0_1))
    (splat 0#32)

private theorem idx30_apply (b : Fin 4) (p : Fin 173184) :
    idx30 g (ix2 b p) = Scalar.select (Cert.Pool.keptAt g b p)
      (IntOp.addi (IntOp.muli (g (ix3 b p (0 : Fin 3))) 200#32) (g (ix3 b p (1 : Fin 3)))) 0#32 := by
  have h : idx30 g (ix2 b p)
      = Scalar.select (kept24 g (ix2 b p))
          (IntOp.addi (IntOp.muli (coord g ![0, 0, 0] slices_S4x173184x3_S4x173184x1_0_0_0 (ix2 b p)) 200#32)
            (coord g ![0, 0, 1] slices_S4x173184x3_S4x173184x1_0_0_1 (ix2 b p))) 0#32 := rfl
  rw [h, kept24_apply, coord_apply g ![0, 0, 0] _ b p 0 rfl rfl rfl, coord_apply g ![0, 0, 1] _ b p 1 rfl rfl rfl]

/-- The second operand: the voxel words padded by 2944 zero words per batch, with a unit axis added. -/
private def idx34 : IVec S4x176128x1 32 :=
  broadcastInDim S4x176128x1 ![0, 1] bcast_S4x176128_S4x176128x1_0_1
    (pad S4x176128 ![0, 0] ![0, 2944] ![0, 0] (idx30 g) (constantI S_ 32 0#32) pads_S4x173184_S4x176128_000_029440 h_S_)

private theorem idx34_apply (b : Fin 4) (q : Fin 176128) :
    idx34 g (ix3 b q (0 : Fin 1)) = Cert.Pool.idxP g b q.val := by
  unfold idx34
  refine (broadcastInDim_apply _ _ _ (ix3 b q (0 : Fin 1)) (ix2 b q) ?_).trans ?_
  · intro a
    match a with
    | ⟨0, _⟩ => rfl
    | ⟨1, _⟩ => rfl
  unfold Cert.Pool.idxP
  by_cases hq : q.val < 173184
  · rw [dif_pos hq]
    refine (pad_apply_of_inside _ _ _ _ _ _ _ (ix2 b q) (ix2 b (⟨q.val, hq⟩ : Fin 173184)) ?_).trans
      (idx30_apply g b ⟨q.val, hq⟩)
    intro a
    match a with
    | ⟨0, _⟩ => show b.val = 0 + b.val * (0 + 1); omega
    | ⟨1, _⟩ => show q.val = 0 + q.val * (0 + 1); omega
  · rw [dif_neg hq]
    refine (pad_apply_of_not_inside _ _ _ _ _ _ _ (ix2 b q) (1 : Fin 2) ?_).trans rfl
    intro hh
    have h3 : (q.val - 0) / (0 + 1) < 173184 := hh.2.2
    omega

end Pure

variable (m : (ℓ : Loc nD τ sig) → Buf (Elt Ideal) ℓ)

/-- The feature argument re-laid as [batch, point, feature]. -/
abbrev xs (c : Dev nD) : Cert.Pool.X3.Idx → EReal :=
  Cert.Pool.xsOf (m ((c : Thread nD τ).loc main_arg0))
/-- The coordinate argument re-laid as [batch, point, coordinate]. -/
abbrev gs (c : Dev nD) : Cert.Pool.G3.Idx → BitVec 32 :=
  Cert.Pool.gsOf (m ((c : Thread nD τ).loc main_arg1))

/-! ## The two operands are those functions of the arguments

The operations before the region, folded over the launch contents and read at the operand's buffer, compose to the
functions above (each operation's result at its own buffer, every other buffer as it was). -/

set_option maxRecDepth 16384 in
set_option maxHeartbeats 4000000 in
private theorem V_v32_eq (c : Dev nD) :
    (V m c main_v32 : S4x176128x64.Idx → EReal) = feat32 (gs m c) (xs m c) := by
  dsimp only [Gen.V, Gen.V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxRecDepth 16384 in
set_option maxHeartbeats 4000000 in
private theorem V_v34_eq (c : Dev nD) :
    (V m c main_v34 : S4x176128x1.Idx → BitVec 32) = idx34 (gs m c) := by
  dsimp only [Gen.V, Gen.V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

/-- The first operand at (batch b, padded point q, feature ch). -/
theorem V_feat (c : Dev nD) (b : Fin 4) (q : Fin 176128) (ch : Fin 64) :
    V m c main_v32 (ix3 b q ch) = Cert.Pool.featP (xs m c) (gs m c) b q.val ch :=
  (congrFun (V_v32_eq m c) (ix3 b q ch)).trans (feat32_apply (gs m c) (xs m c) b q ch)

/-- The second operand at (batch b, padded point q). -/
theorem V_idx (c : Dev nD) (b : Fin 4) (q : Fin 176128) :
    V m c main_v34 (ix3 b q (0 : Fin 1)) = Cert.Pool.idxP (gs m c) b q.val :=
  (congrFun (V_v34_eq m c) (ix3 b q (0 : Fin 1))).trans (idx34_apply (gs m c) b q)

end Cert.KernelIdeal.Hand

end
-- ==== Proof.KGrid.lean ====
/-
  The grid and the operand blocks. Grid position t (0 ≤ t < 3440) is batch t / 860, voxel tile (t / 43) mod 20, point
  tile t mod 43. The two operand windows step through the padded points: their block at t is rows
  (t mod 43)·4096 … +4095 of batch t / 860, all 64 features (one voxel word) of each row.
-/
import proofs.«416935_j79121887526974_1_alg».proof.Proof.KAcc
import proofs.«416935_j79121887526974_1_alg».proof.Proof.KHost
import Idealize.ShloMosaic.Lib.Pipeline.Value

noncomputable section

open scoped BigOperators

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem t_lt (t : Fin cfg0.N) : t.val < 3440 := lt_of_lt_of_eq t.isLt (show cfg0.N = 3440 from N_0)

/-- The batch of grid position t. -/
def batchOf (t : Fin cfg0.N) : Fin 4 := ⟨t.val / 860, by have := t_lt t; omega⟩

/-- The coordinates of every grid position, decided once over the 3440 positions. -/
private theorem coords_all : ∀ t : Fin grid0.N,
    (grid0.coords t 0).val = t.val / 860 ∧ (grid0.coords t 1).val = (t.val / 43) % 20 ∧ (grid0.coords t 2).val = t.val % 43 := by
  decide +kernel

/-- The feature window's block index at every grid position: (batch, point tile, 0). -/
private theorem index0_all : ∀ t : Fin grid0.N,
    win0_0.index t 0 = t.val / 860 ∧ win0_0.index t 1 = t.val % 43 ∧ win0_0.index t 2 = 0 := by
  decide +kernel

/-- The voxel-word window's block index at every grid position: (batch, point tile, 0). -/
private theorem index1_all : ∀ t : Fin grid0.N,
    win0_1.index t 0 = t.val / 860 ∧ win0_1.index t 1 = t.val % 43 ∧ win0_1.index t 2 = 0 := by
  decide +kernel

/-- The grid coordinates of position t: (batch, voxel tile, point tile). -/
theorem coords_val (t : Fin cfg0.N) :
    (grid0.coords t 0).val = t.val / 860 ∧ (grid0.coords t 1).val = (t.val / 43) % 20 ∧ (grid0.coords t 2).val = t.val % 43 :=
  coords_all t

/-- The feature block of position t: row k, feature ch is padded point (t mod 43)·4096 + k of the batch. -/
theorem fblk_apply (c : Dev nD) (t : Fin cfg0.N) (k : Fin 4096) (ch : Fin 64) :
    fblk m c t (ix3 (0 : Fin 1) k ch)
      = Cert.Pool.featP (xs m c) (gs m c) (batchOf t) ((t.val % 43) * 4096 + k.val) ch := by
  have hi := index0_all t
  have hq : (t.val % 43) * 4096 + k.val < 176128 := by have := k.isLt; omega
  rw [← V_feat m c (batchOf t) ⟨(t.val % 43) * 4096 + k.val, hq⟩ ch]
  unfold fblk iblk
  rw [View.read_apply]
  show V m c main_v32 _ = V m c main_v32 _
  congr 1
  funext a
  apply Fin.ext
  match a with
  | ⟨0, _⟩ => show win0_0.index t 0 * 1 + 1 * 0 = t.val / 860; rw [hi.1]; omega
  | ⟨1, _⟩ => show win0_0.index t 1 * 4096 + 1 * k.val = (t.val % 43) * 4096 + k.val; rw [hi.2.1]; omega
  | ⟨2, _⟩ => show win0_0.index t 2 * 64 + 1 * ch.val = ch.val; rw [hi.2.2]; omega

/-- The voxel-word block of position t. -/
theorem iblkW_apply (c : Dev nD) (t : Fin cfg0.N) (k : Fin 4096) :
    iblkW m c t (ix3 (0 : Fin 1) k (0 : Fin 1))
      = Cert.Pool.idxP (gs m c) (batchOf t) ((t.val % 43) * 4096 + k.val) := by
  have hi := index1_all t
  have hq : (t.val % 43) * 4096 + k.val < 176128 := by have := k.isLt; omega
  rw [← V_idx m c (batchOf t) ⟨(t.val % 43) * 4096 + k.val, hq⟩]
  unfold iblkW iblk
  rw [View.read_apply]
  show V m c main_v34 _ = V m c main_v34 _
  congr 1
  funext a
  apply Fin.ext
  match a with
  | ⟨0, _⟩ => show win0_1.index t 0 * 1 + 1 * 0 = t.val / 860; rw [hi.1]; omega
  | ⟨1, _⟩ => show win0_1.index t 1 * 4096 + 1 * k.val = (t.val % 43) * 4096 + k.val; rw [hi.2.1]; omega
  | ⟨2, _⟩ => show win0_1.index t 2 * 1 + 1 * 0 = 0; rw [hi.2.2]

end Cert.KernelIdeal.Hand

end
-- ==== Proof.KPay.lean ====
/-
  The kernel body's three stored values read at an index, at the ideal values: the reset stores 0; the update stores
  the running total plus the tile's one-hot product; the output block is the running total re-laid.
-/
import proofs.«416935_j79121887526974_1_alg».proof.Proof.Gen.KernelIdeal.Skeleton
import proofs.«416935_j79121887526974_1_alg».proof.Proof.Pool
import Idealize.ShloMosaic.Lib.Pipeline.Value
import Idealize.ShloMosaic.Lib.ValueLayout

noncomputable section

open scoped BigOperators

namespace Cert.KernelIdeal.Hand

open Cert.KernelIdeal Cert.KernelIdeal.Gen Idealize.ShloMosaic Idealize.ShloMosaic.ValueIdx

/-! ## The block product's operand indices

The product contracts axis 0 of both operands: at output index (ch, l) and contraction position k the left operand is
read at (k, ch) and the right operand at (k, l). One lemma per operand axis. -/

/-- Left operand, axis 0 (contracted): the contraction position. -/
theorem payDot_lhs_0 (j : S64x2048.Idx) (q : dot_S4096x64_S4096x2048_S64x2048_0_0_1_1_n_n.contr.Idx) :
    (dot_S4096x64_S4096x2048_S64x2048_0_0_1_1_n_n.lhsIdx j q 0).val = (q ⟨0, by decide⟩).val :=
  dot_S4096x64_S4096x2048_S64x2048_0_0_1_1_n_n.lhsIdx_val_of_single rfl j q

/-- Left operand, axis 1 (free): the output's axis 0. -/
theorem payDot_lhs_1 (j : S64x2048.Idx) (q : dot_S4096x64_S4096x2048_S64x2048_0_0_1_1_n_n.contr.Idx) :
    (dot_S4096x64_S4096x2048_S64x2048_0_0_1_1_n_n.lhsIdx j q 1).val = (j 0).val := by
  unfold DotDims.lhsIdx
  rw [dif_neg (show ¬(1 : Fin S4096x64.rank) ∈ dot_S4096x64_S4096x2048_S64x2048_0_0_1_1_n_n.lhsBatch by decide),
    dif_pos (show (1 : Fin S4096x64.rank) ∈ dot_S4096x64_S4096x2048_S64x2048_0_0_1_1_n_n.lhsNonContracting by decide)]
  rfl

/-- Right operand, axis 0 (contracted): the contraction position. -/
theorem payDot_rhs_0 (j : S64x2048.Idx) (q : dot_S4096x64_S4096x2048_S64x2048_0_0_1_1_n_n.contr.Idx) :
    (dot_S4096x64_S4096x2048_S64x2048_0_0_1_1_n_n.rhsIdx j q 0).val = (q ⟨0, by decide⟩).val :=
  dot_S4096x64_S4096x2048_S64x2048_0_0_1_1_n_n.rhsIdx_val_of_single rfl j q

/-- Right operand, axis 1 (free): the output's axis 1. -/
theorem payDot_rhs_1 (j : S64x2048.Idx) (q : dot_S4096x64_S4096x2048_S64x2048_0_0_1_1_n_n.contr.Idx) :
    (dot_S4096x64_S4096x2048_S64x2048_0_0_1_1_n_n.rhsIdx j q 1).val = (j 1).val := by
  unfold DotDims.rhsIdx
  rw [dif_neg (show ¬(1 : Fin S4096x2048.rank) ∈ dot_S4096x64_S4096x2048_S64x2048_0_0_1_1_n_n.rhsBatch by decide),
    dif_pos (show (1 : Fin S4096x2048.rank) ∈ dot_S4096x64_S4096x2048_S64x2048_0_0_1_1_n_n.rhsNonContracting by decide)]
  rfl

/-- The block product into the zero block, at (ch, l): the sum over the 4096 rows k of left (k, ch) times right (k, l). -/
theorem payDot_apply (A : FVec Ideal S4096x64 .bf16) (B : FVec Ideal S4096x2048 .bf16) (ch : Fin 64) (l : Fin 2048) :
    matmul dot_S4096x64_S4096x2048_S64x2048_0_0_1_1_n_n none A B (constant (F := Ideal) S64x2048 .f32 0x00000000#32) (ix2 ch l)
      = ∑ k : Fin 4096, A (ix2 k ch) * B (ix2 k l) := by
  simp only [matmul]
  rw [Ideal.matmul_constant_zero_apply, ← Equiv.sum_comp (contrEquiv1 dot_S4096x64_S4096x2048_S64x2048_0_0_1_1_n_n 4096 rfl rfl).symm]
  refine Finset.sum_congr rfl fun k _ => ?_
  have hk := contrEquiv1_symm_val dot_S4096x64_S4096x2048_S64x2048_0_0_1_1_n_n 4096 rfl rfl k
  have el : dot_S4096x64_S4096x2048_S64x2048_0_0_1_1_n_n.lhsIdx (ix2 ch l) ((contrEquiv1 dot_S4096x64_S4096x2048_S64x2048_0_0_1_1_n_n 4096 rfl rfl).symm k) = ix2 k ch :=
    funext fun a => Fin.ext (by
      match a with
      | ⟨0, _⟩ => exact (payDot_lhs_0 _ _).trans hk
      | ⟨1, _⟩ => exact payDot_lhs_1 _ _)
  have er : dot_S4096x64_S4096x2048_S64x2048_0_0_1_1_n_n.rhsIdx (ix2 ch l) ((contrEquiv1 dot_S4096x64_S4096x2048_S64x2048_0_0_1_1_n_n 4096 rfl rfl).symm k) = ix2 k l :=
    funext fun a => Fin.ext (by
      match a with
      | ⟨0, _⟩ => exact (payDot_rhs_0 _ _).trans hk
      | ⟨1, _⟩ => exact payDot_rhs_1 _ _)
  rw [el, er]

/-! ## The two operands at an index -/

/-- The point block with its unit axis dropped, at (k, ch): the block at (0, k, ch). -/
theorem payFeat_apply (x0 : Vec Ideal S1x4096x64 .bf16) (k : Fin 4096) (ch : Fin 64) :
    shapeCast S4096x64 x0 shapeCasts_S1x4096x64_S4096x64 (ix2 k ch) = x0 (ix3 (0 : Fin 1) k ch) :=
  shapeCast_1ab_ab_apply x0 _ k ch

/-- The voxel words as a column, at (k, 0): the word block at (0, k, 0). -/
theorem payWord_apply (x1 : Vec Ideal S1x4096x1 .i32) (k : Fin 4096) :
    shapeCast S4096x1 (shapeCast S4096 x1 shapeCasts_S1x4096x1_S4096) shapeCasts_S4096_S4096x1 (ix2 k (0 : Fin 1))
      = x1 (ix3 (0 : Fin 1) k (0 : Fin 1)) := by
  refine (shapeCast_apply _ _ _ (ix1 k) ?_).trans (shapeCast_apply _ _ _ (ix3 (0 : Fin 1) k (0 : Fin 1)) ?_)
  · rw [Shape.rowMajor_val_one, Shape.rowMajor_val_two]
    show k.val = k.val * 1 + 0
    omega
  · rw [Shape.rowMajor_val_three, Shape.rowMajor_val_one]
    show (0 * 4096 + k.val) * 1 + 0 = k.val
    omega

/-- The column broadcast along the lanes, at (k, l): the column at (k, 0). -/
theorem payCol_apply (c : IVec S4096x1 32) (k : Fin 4096) (l : Fin 2048) :
    broadcastTo S4096x2048 c broadcasts_S4096x1_S4096x2048 (ix2 k l) = c (ix2 k (0 : Fin 1)) := by
  refine broadcastTo_apply c _ (ix2 k l) (ix2 k (0 : Fin 1)) fun ax => ?_
  match ax with
  | ⟨0, _⟩ => rfl
  | ⟨1, _⟩ => rfl

/-- 32-bit arithmetic: tile t's first voxel word t·2048 plus the lane l is the word of t·2048 + l. -/
theorem payVox_word (t l : ℕ) :
    IntOp.addi (Scalar.muli (BitVec.ofNat 32 t) 2048#32) (BitVec.ofNat 32 l) = BitVec.ofNat 32 (t * 2048 + l) := by
  unfold IntOp.addi Scalar.muli IntOp.muli
  apply BitVec.eq_of_toNat_eq
  simp only [BitVec.toNat_add, BitVec.toNat_mul, BitVec.toNat_ofNat]
  omega

/-- The row of voxel words of the tile, broadcast along the points, at (k, l): the word of t·2048 + l. -/
theorem payRow_apply (t : ℕ) (k : Fin 4096) (l : Fin 2048) :
    broadcastTo S4096x2048
        (addi (broadcast S1x2048 (Scalar.muli (BitVec.ofNat 32 t) 2048#32)) (iota .tc S1x2048 32 [1] iota_S1x2048_d1_w32))
        broadcasts_S1x2048_S4096x2048 (ix2 k l)
      = BitVec.ofNat 32 (t * 2048 + l.val) := by
  refine (broadcastTo_1b_ab_apply _ _ k l).trans ?_
  show IntOp.addi (Scalar.muli (BitVec.ofNat 32 t) 2048#32) (iota .tc S1x2048 32 [1] iota_S1x2048_d1_w32 (ix2 (0 : Fin 1) l)) = _
  rw [iota_single_apply]
  exact payVox_word t l.val

/-- The reset's block is 0 everywhere. -/
theorem pay1_apply (ch : Fin 64) (l : Fin 2048) : (k0_pay1 (F := Ideal)) (ix2 ch l) = 0 := by
  unfold k0_pay1
  rw [shapeCast_self]
  exact Ideal.ofBits_zero_f32

/-- The output block is the running total with a leading unit axis. -/
theorem pay3_apply (v : Vec Ideal S64x2048 .f32) (ch : Fin 64) (l : Fin 2048) :
    k0_pay3 (F := Ideal) v (ix3 (0 : Fin 1) ch l) = v (ix2 ch l) := by
  unfold k0_pay3
  exact shapeCast_ab_1ab_apply v _ (0 : Fin 1) ch l

/-- The update at (feature ch, lane l) of voxel tile `i 1`: the running total there plus, over the tile's 4096 points,
    the point's feature times its one-hot weight for voxel word (i 1)·2048 + l. -/
theorem pay2_apply (i : grid0.Coords) (x0 : Vec Ideal S1x4096x64 .bf16) (x1 : Vec Ideal S1x4096x1 .i32)
    (acc : Vec Ideal S64x2048 .f32) (ch : Fin 64) (l : Fin 2048) :
    k0_pay2 (F := Ideal) i x0 x1 acc (ix2 ch l)
      = acc (ix2 ch l) + ∑ k : Fin 4096, x0 (ix3 (0 : Fin 1) k ch)
          * Cert.Pool.hot (x1 (ix3 (0 : Fin 1) k (0 : Fin 1))) (BitVec.ofNat 32 ((i 1).val * 2048 + l.val)) := by
  unfold k0_pay2
  rw [shapeCast_self]
  refine (addf_apply _ _ _).trans ?_
  refine congrArg (acc (ix2 ch l) + ·) ?_
  refine (payDot_apply _ _ ch l).trans ?_
  refine Finset.sum_congr rfl fun k _ => ?_
  rw [payFeat_apply]
  refine congrArg (x0 (ix3 (0 : Fin 1) k ch) * ·) ?_
  show ((((IntOp.cmpi .eq (broadcastTo S4096x2048 _ broadcasts_S4096x1_S4096x2048 (ix2 k l))
      (broadcastTo S4096x2048 _ broadcasts_S1x2048_S4096x2048 (ix2 k l))).setWidth 32).toInt : ℝ) : EReal) = _
  rw [payCol_apply, payWord_apply, payRow_apply]
  rfl

end Cert.KernelIdeal.Hand

end
-- ==== Proof.KTotal.lean ====
/-
  The running total in closed form: at grid position t, feature ch, lane l it is the chain of the batch's tile products
  for voxel word ((t / 43) mod 20)·2048 + l, up to point tile t mod 43 — by induction on the position: at point tile 0
  the total restarts from the zero block, elsewhere the previous position has the same batch and voxel tile and the
  point tile before.
-/
import proofs.«416935_j79121887526974_1_alg».proof.Proof.KGrid
import proofs.«416935_j79121887526974_1_alg».proof.Proof.KPay

noncomputable section

open scoped BigOperators

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- One position's product: the sum over the block's 4096 rows of feature times one-hot weight is the batch's tile
    product at point tile t mod 43, for voxel word ((t / 43) mod 20)·2048 + l. -/
private theorem point_sum (c : Dev nD) (t : Fin cfg0.N) (ch : Fin 64) (l : Fin 2048) :
    (∑ k : Fin 4096, fblk m c t (ix3 (0 : Fin 1) k ch)
        * Cert.Pool.hot (iblkW m c t (ix3 (0 : Fin 1) k (0 : Fin 1)))
            (BitVec.ofNat 32 ((grid0.coords t 1).val * 2048 + l.val)))
      = Cert.Pool.tile (xs m c) (gs m c) (batchOf t) ch
          (BitVec.ofNat 32 (((t.val / 43) % 20) * 2048 + l.val)) (t.val % 43) := by
  unfold Cert.Pool.tile
  rw [(coords_val t).2.1]
  refine Finset.sum_congr rfl fun k _ => ?_
  exact congrArg₂ (· * ·) (fblk_apply m c t k ch)
    (congrArg (Cert.Pool.hot · (BitVec.ofNat 32 (((t.val / 43) % 20) * 2048 + l.val))) (iblkW_apply m c t k))

/-- The update at position t over a previous total `acc`, at (ch, l): `acc` there plus the position's tile product. -/
private theorem update_at (c : Dev nD) (t : Fin cfg0.N) (acc : Vec Ideal S64x2048 .f32) (ch : Fin 64) (l : Fin 2048) :
    k0_pay2 (F := Ideal) (grid0.coords t) (fblk m c t) (iblkW m c t) acc (ix2 ch l)
      = acc (ix2 ch l) + Cert.Pool.tile (xs m c) (gs m c) (batchOf t) ch
          (BitVec.ofNat 32 (((t.val / 43) % 20) * 2048 + l.val)) (t.val % 43) :=
  (pay2_apply (grid0.coords t) (fblk m c t) (iblkW m c t) acc ch l).trans
    (congrArg (acc (ix2 ch l) + ·) (point_sum m c t ch l))

/-- At point tile 0 the total is 0 plus the first tile product: the chain's first step. -/
private theorem total_apply_reset (c : Dev nD) (t : Fin cfg0.N) (h0 : t.val % 43 = 0) (ch : Fin 64) (l : Fin 2048) :
    total m c t.val t.isLt (ix2 ch l)
      = Cert.Pool.chain (Cert.Pool.tile (xs m c) (gs m c) (batchOf t) ch
          (BitVec.ofNat 32 (((t.val / 43) % 20) * 2048 + l.val))) (t.val % 43) := by
  refine (congrFun (total_reset m c t h0) (ix2 ch l)).trans ?_
  refine (update_at m c t (k0_pay1 (F := Ideal)) ch l).trans ?_
  rw [pay1_apply, h0]
  rfl

/-- Past point tile 0 the position before has the same batch (860 = 20·43 positions each), the same voxel tile and the
    point tile before, so the total is the chain's next step. -/
private theorem total_apply_step (c : Dev nD) (n : ℕ) (h : n + 1 < cfg0.N) (h0 : ¬(n + 1) % 43 = 0) (ch : Fin 64)
    (l : Fin 2048)
    (ih : total m c n (Nat.lt_of_succ_lt h) (ix2 ch l)
      = Cert.Pool.chain (Cert.Pool.tile (xs m c) (gs m c) (batchOf ⟨n, Nat.lt_of_succ_lt h⟩) ch
          (BitVec.ofNat 32 (((n / 43) % 20) * 2048 + l.val))) (n % 43)) :
    total m c (n + 1) h (ix2 ch l)
      = Cert.Pool.chain (Cert.Pool.tile (xs m c) (gs m c) (batchOf ⟨n + 1, h⟩) ch
          (BitVec.ofNat 32 ((((n + 1) / 43) % 20) * 2048 + l.val))) ((n + 1) % 43) := by
  have ht : n + 1 < 3440 := t_lt ⟨n + 1, h⟩
  have e : total m c (n + 1) h = k0_pay2 (grid0.coords ⟨n + 1, h⟩) (fblk m c ⟨n + 1, h⟩) (iblkW m c ⟨n + 1, h⟩)
      (total m c n (Nat.lt_of_succ_lt h)) := total_step m c ⟨n + 1, h⟩ h0
  refine (congrFun e (ix2 ch l)).trans ?_
  refine (update_at m c ⟨n + 1, h⟩ (total m c n (Nat.lt_of_succ_lt h)) ch l).trans ?_
  rw [ih]
  have hb : batchOf ⟨n, Nat.lt_of_succ_lt h⟩ = batchOf ⟨n + 1, h⟩ :=
    Fin.ext (by show n / 860 = (n + 1) / 860; omega)
  have hv : (n / 43) % 20 = ((n + 1) / 43) % 20 := by omega
  obtain ⟨p, hp⟩ := Nat.exists_eq_succ_of_ne_zero h0
  have hq : n % 43 = p := by omega
  rw [hb, hv, hq]
  show _ + Cert.Pool.tile _ _ _ _ _ ((n + 1) % 43) = Cert.Pool.chain _ ((n + 1) % 43)
  rw [hp]
  rfl

/-- The closed form at every position, by recursion on the position. -/
private theorem total_apply_aux (c : Dev nD) (ch : Fin 64) (l : Fin 2048) : ∀ (n : ℕ) (h : n < cfg0.N),
    total m c n h (ix2 ch l)
      = Cert.Pool.chain (Cert.Pool.tile (xs m c) (gs m c) (batchOf ⟨n, h⟩) ch
          (BitVec.ofNat 32 (((n / 43) % 20) * 2048 + l.val))) (n % 43)
  | 0, h => total_apply_reset m c ⟨0, h⟩ (Nat.zero_mod 43) ch l
  | n + 1, h => by
    by_cases h0 : (n + 1) % 43 = 0
    · exact total_apply_reset m c ⟨n + 1, h⟩ h0 ch l
    · exact total_apply_step m c n h h0 ch l (total_apply_aux c ch l n (Nat.lt_of_succ_lt h))

/-- The running total at position t, feature ch, lane l. -/
theorem total_apply (c : Dev nD) (t : Fin cfg0.N) (ch : Fin 64) (l : Fin 2048) :
    total m c t.val t.isLt (ix2 ch l)
      = Cert.Pool.chain (Cert.Pool.tile (xs m c) (gs m c) (batchOf t) ch
          (BitVec.ofNat 32 (((t.val / 43) % 20) * 2048 + l.val))) (t.val % 43) :=
  total_apply_aux m c ch l t.val t.isLt

end Cert.KernelIdeal.Hand

end
-- ==== Proof.PoolTiles.lean ====
/-
  The tiled one-hot product is the pooled value: 43 tiles of 4096 padded points, each tile's partial sum added to a
  running total that starts from 0, sum to the pooled value — the padding points and the unkept points carry feature 0,
  a kept point's 32-bit voxel word g0·200 + g1 does not wrap, and a one-hot weight is 1 exactly on the matching voxel.
-/
import proofs.«416935_j79121887526974_1_alg».proof.Proof.Pool

noncomputable section

open scoped BigOperators

namespace Cert.Pool

open Idealize.ShloMosaic Idealize.ShloMosaic.ValueIdx

/-- A sum over m consecutive tiles of n terms each is one sum over the m·n terms: tile i holds the terms i·n + k, k < n. -/
private theorem sum_tiles {M : Type} [AddCommMonoid M] (n : ℕ) (g : ℕ → M) (m : ℕ) :
    ∑ i ∈ Finset.range m, ∑ k : Fin n, g (i * n + k.val) = ∑ q ∈ Finset.range (m * n), g q := by
  induction m with
  | zero => simp
  | succ m ih =>
    rw [Finset.sum_range_succ, ih, Nat.succ_mul, Finset.sum_range_add,
      Fin.sum_univ_eq_sum_range (fun k => g (m * n + k)) n]

/-- For coordinates below 200 the 32-bit word g0·200 + g1 does not wrap (it is below 40000), and a voxel number below
    40960 is its own 32-bit word; so the two words are equal exactly when the natural numbers are. -/
private theorem word_eq_iff (g0 g1 : BitVec 32) (v : ℕ) (h0 : g0.toNat < 200) (h1 : g1.toNat < 200) (hv : v < 40960) :
    IntOp.addi (IntOp.muli g0 200#32) g1 = BitVec.ofNat 32 v ↔ g0.toNat * 200 + g1.toNat = v := by
  unfold IntOp.addi IntOp.muli
  rw [← BitVec.toNat_inj]
  simp only [BitVec.toNat_add, BitVec.toNat_mul, BitVec.toNat_ofNat]
  omega

/-- One real point's term of the tiled product: its feature if the point is kept and its voxel is v, else 0. -/
private theorem point_term (xs : X3.Idx → EReal) (gs : G3.Idx → BitVec 32) (b : Fin 4) (ch : Fin 64) (v : ℕ)
    (hv : v < 40960) (p : Fin 173184) :
    featP xs gs b p.val ch * hot (idxP gs b p.val) (BitVec.ofNat 32 v)
      = if keptAt gs b p = 1#1 ∧ voxAt gs b p = v then xs (ix3 b p ch) else 0 := by
  obtain ⟨q, hq⟩ := p
  unfold featP idxP
  rw [dif_pos hq, dif_pos hq]
  by_cases hk : keptAt gs b ⟨q, hq⟩ = 1#1
  · rw [hk, select_one, select_one, hot_eq]
    obtain ⟨h0, h1, _⟩ := (keptW_iff _ _ _).mp hk
    by_cases hw : voxAt gs b ⟨q, hq⟩ = v
    · rw [if_pos ((word_eq_iff _ _ v h0 h1 hv).mpr hw), mul_one, if_pos ⟨rfl, hw⟩]
    · rw [if_neg (fun h => hw ((word_eq_iff _ _ v h0 h1 hv).mp h)), mul_zero, if_neg (fun h => hw h.2)]
  · rw [eq_zero_of_ne_one hk, select_zero, zero_mul, if_neg (fun h => by simp at h)]

/-- THE TILED PRODUCT IS THE POOLED VALUE: the running total after the 43rd tile, at voxel word v < 40960 (for
    40000 ≤ v no kept point has that voxel and both sides are 0). -/
theorem kernel_total (xs : X3.Idx → EReal) (gs : G3.Idx → BitVec 32) (b : Fin 4) (ch : Fin 64) (v : ℕ) (hv : v < 40960) :
    chain (tile xs gs b ch (BitVec.ofNat 32 v)) 42 = pool xs gs b ch v := by
  -- the running total is the sum of the 43 tiles, and the 43 tiles together are one sum over 176128 padded points
  rw [chain_eq_sum]
  unfold tile
  rw [sum_tiles 4096 (fun q => featP xs gs b q ch * hot (idxP gs b q) (BitVec.ofNat 32 v)) (42 + 1)]
  -- 176128 = 173184 real points + 2944 padding points
  have hsplit : (42 + 1) * 4096 = 173184 + 2944 := by norm_num
  rw [hsplit, Finset.sum_range_add]
  -- a padding point's feature is 0, so its term is 0
  have hpad : ∑ x ∈ Finset.range 2944,
      featP xs gs b (173184 + x) ch * hot (idxP gs b (173184 + x)) (BitVec.ofNat 32 v) = 0 := by
    apply Finset.sum_eq_zero
    intro x _
    have hx : ¬ (173184 + x < 173184) := by omega
    unfold featP
    rw [dif_neg hx, zero_mul]
  rw [hpad, add_zero,
    ← Fin.sum_univ_eq_sum_range (fun q => featP xs gs b q ch * hot (idxP gs b q) (BitVec.ofNat 32 v)) 173184]
  -- the real points, one by one
  unfold pool
  exact Finset.sum_congr rfl (fun p _ => point_term xs gs b ch v hv p)

end Cert.Pool

end
-- ==== Proof.KBlocks.lean ====
/-
  From the per-point totals to the kernel's output array. The output block (batch, all 64 features, voxel tile) is
  written back after point tile 42 only, when the chain of tile products is complete and — the tiled product being the
  pooled value — equals the pooled values of voxels tile·2048 … +2047. The 80 blocks written back tile the
  [4, 64, 40960] array.
-/
import proofs.«416935_j79121887526974_1_alg».proof.Proof.KTotal
import proofs.«416935_j79121887526974_1_alg».proof.Proof.PoolTiles
import Idealize.ShloMosaic.Lib.Pipeline.Value

noncomputable section

open scoped BigOperators

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The kernel's output array: entry (b, ch, v) is the pooled value of batch b, feature ch at voxel v (0 for the
    960 padding voxels, which no kept point has). -/
def pooledPad (c : Dev nD) : S4x64x40960.Idx → EReal :=
  fun j => Cert.Pool.pool (xs m c) (gs m c) (j 0) (j 1) (j 2).val

/-- The output window's block index at grid position t: (batch, 0, voxel tile). -/
private theorem index2 : ∀ t : Fin grid0.N, win0_2.index t 0 = t.val / 860 ∧ win0_2.index t 1 = 0 ∧ win0_2.index t 2 = (t.val / 43) % 20 := by
  decide +kernel

/-- The voxel that lane l of the block written back at grid position t holds. -/
private def voxOf (t : Fin cfg0.N) (l : Fin 2048) : Fin 40960 :=
  ⟨(t.val / 43) % 20 * 2048 + l.val, by have := l.isLt; omega⟩

/-- The output array read through the block of grid position t: feature ch, lane l of the block is the array at
    (batch of t, ch, voxel tile of t · 2048 + l) — on each axis the block index times the block's extent plus the
    coordinate inside the block. -/
private theorem read_blk (G : S4x64x40960.Idx → EReal) (t : Fin cfg0.N) (ch : Fin 64) (l : Fin 2048) :
    ((cfg0.win 2).blk t).view.read (Elt Ideal) G (ix3 (0 : Fin 1) ch l) = G (ix3 (batchOf t) ch (voxOf t l)) := by
  obtain ⟨i0, i1, i2⟩ := index2 t
  show G (((cfg0.win 2).blk t).view.emb (ix3 (0 : Fin 1) ch l)) = _
  refine congrArg G (funext fun a => Fin.ext ?_)
  match a with
  | ⟨0, _⟩ => show win0_2.index t 0 * 1 + 1 * 0 = t.val / 860; rw [i0]; omega
  | ⟨1, _⟩ => show win0_2.index t 1 * 64 + 1 * ch.val = ch.val; rw [i1]; omega
  | ⟨2, _⟩ => show win0_2.index t 2 * 2048 + 1 * l.val = t.val / 43 % 20 * 2048 + l.val; rw [i2]; omega

/-- The pooled array at (b, ch, v). -/
private theorem pooledPad_apply (c : Dev nD) (b : Fin 4) (ch : Fin 64) (v : Fin 40960) :
    pooledPad m c (ix3 b ch v) = Cert.Pool.pool (xs m c) (gs m c) b ch v.val := rfl

/-- What the pipeline writes back at a position with point tile 42: the block of the pooled array at
    (batch, all features, voxel tile). -/
private theorem flushed_eq (c : Dev nD) (t : Fin cfg0.N) (hf : (cfg0.win 2).flush t = true) :
    (dats m 0 c).flushed 2 t = ((cfg0.win 2).blk t).view.read (Elt Ideal) (pooledPad m c) := by
  have h42 : t.val % 43 = 42 := (flush0_2 t).mp hf
  show (cfg0.win 2).cut (grid0.coords t) ((dats m 0 c).after 2 t) = _
  rw [after0_2, outsAt_eq]
  funext y
  revert y
  show ∀ y : S1x64x2048.Idx, _
  intro y
  obtain ⟨z, ch, l, rfl⟩ : ∃ (z : Fin 1) (ch : Fin 64) (l : Fin 2048), y = ix3 z ch l := ⟨y 0, y 1, y 2, eq_ix3 y⟩
  obtain rfl : z = 0 := Subsingleton.elim _ _
  have hx : (cfg0.win 2).xinj (grid0.coords t) (ix3 (0 : Fin 1) ch l) = ix3 (0 : Fin 1) ch l :=
    funext fun a => match a with | ⟨0, _⟩ => rfl | ⟨1, _⟩ => rfl | ⟨2, _⟩ => rfl
  rw [read_blk, pooledPad_apply]
  show k0_pay3 (F := Ideal) (total m c t.val t.isLt) ((cfg0.win 2).xinj (grid0.coords t) (ix3 (0 : Fin 1) ch l)) = _
  rw [hx, pay3_apply, total_apply, h42]
  exact Cert.Pool.kernel_total _ _ _ _ _ (voxOf t l).isLt

/-- After the region the output array holds it. -/
theorem final (c : Dev nD) : (dats m 0 c).arrAt 2 cfg0.N = pooledPad m c :=
  (dats m 0 c).arrAt_eq_of_cover 2 (pooledPad m c) (fun t hf => flushed_eq m c t hf) fun i => by
    have h0 : (i 0 : Nat) < 4 := (i 0).isLt
    have h1 : (i 1 : Nat) < 64 := (i 1).isLt
    have h2 : (i 2 : Nat) < 40960 := (i 2).isLt
    have hN : cfg0.N = 3440 := N_0
    obtain ⟨t, ht⟩ : ∃ t : Fin cfg0.N, t.val = ((i 0 : Nat) * 20 + (i 2 : Nat) / 2048) * 43 + 42 :=
      ⟨⟨((i 0 : Nat) * 20 + (i 2 : Nat) / 2048) * 43 + 42, by rw [hN]; omega⟩, rfl⟩
    obtain ⟨i0, i1, i2⟩ := index2 t
    refine ⟨t, (flush0_2 t).mpr (by omega), ?_⟩
    show i ∈ ((View.whole main_v35).slice (win0_2.rect t)).set
    rw [View.set_slice_whole, Rect.mem_set_unit]
    intro a
    match a with
    | ⟨0, _⟩ =>
      show win0_2.index t 0 * 1 ≤ (i 0 : Nat) ∧ (i 0 : Nat) < win0_2.index t 0 * 1 + 1
      rw [i0]; omega
    | ⟨1, _⟩ =>
      show win0_2.index t 1 * 64 ≤ (i 1 : Nat) ∧ (i 1 : Nat) < win0_2.index t 1 * 64 + 64
      rw [i1]; omega
    | ⟨2, _⟩ =>
      show win0_2.index t 2 * 2048 ≤ (i 2 : Nat) ∧ (i 2 : Nat) < win0_2.index t 2 * 2048 + 2048
      rw [i2]; omega

end Cert.KernelIdeal.Hand

end
-- ==== Proof.KTail.lean ====
/-
  The kernel program's run, read: after the region the host slices voxels 0 … 39999 out of the 40960 and re-lays them
  as [200, 200], so the result at (b, ch, x, y) is the pooled value at voxel x·200 + y; the arguments are unchanged.
-/
import proofs.«416935_j79121887526974_1_alg».proof.Proof.KBlocks
import Idealize.ShloMosaic.Lib.StableHlo.Run

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The slice of the first 40000 voxels followed by the re-lay as [200, 200], read at (b, ch, X, Y): the array's entry
    at voxel X·200 + Y, whose row-major position among the 4·64·40000 sliced entries is that of (b, ch, X, Y) among
    the 4·64·200·200. -/
private theorem slice_relay_apply (P : S4x64x40960.Idx → EReal) (b : Fin 4) (ch : Fin 64) (X Y : Fin 200)
    (hv : X.val * 200 + Y.val < 40960) :
    shapeCast S4x64x200x200 (extractStridedSlice S4x64x40000 ![0, 0, 0] P slices_S4x64x40960_S4x64x40000_0_0_0)
        shapeCasts_S4x64x40000_S4x64x200x200 (ix4 b ch X Y)
      = P (ix3 b ch ⟨X.val * 200 + Y.val, hv⟩) := by
  have hv' : X.val * 200 + Y.val < 40000 := by have := X.isLt; have := Y.isLt; omega
  refine (shapeCast_apply _ _ (ix4 b ch X Y) (ix3 b ch ⟨X.val * 200 + Y.val, hv'⟩) ?_).trans ?_
  · rw [Shape.rowMajor_val_three, Shape.rowMajor_val_four]
    show ((b.val * 64 + ch.val) * 40000 + (X.val * 200 + Y.val)) = ((b.val * 64 + ch.val) * 200 + X.val) * 200 + Y.val
    omega
  · unfold extractStridedSlice
    refine congrArg P (funext fun a => ?_)
    match a with
    | ⟨0, _⟩ => exact Fin.ext (show 0 + b.val = b.val by omega)
    | ⟨1, _⟩ => exact Fin.ext (show 0 + ch.val = ch.val by omega)
    | ⟨2, _⟩ => exact Fin.ext (show 0 + (X.val * 200 + Y.val) = X.val * 200 + Y.val by omega)

/-- What the two host operations after the region leave in the result buffer: the pooled grid. -/
theorem tail_eq (c : Dev nD) :
    Pipeline.afterTail₀ cfgs (dats m) 0 (V0 m) [hostOps1] c main_v37 = Cert.Pool.pooled (xs m c) (gs m c) := by
  -- the result buffer after the two operations: the re-lay of the slice of the region's output array
  unfold Pipeline.afterTail₀
  show StableHlo.after hostOps1 _ (Proc.devRef .tc main_v37) = _
  after_results
  -- the region leaves the padded pooled array in its output array
  have e : Pipeline.withArrays (cfgs 0).spec c (V0 m c) (fun w => (dats m 0 c).arrAt w (cfgs 0).N)
      (Proc.devRef .tc main_v35) = pooledPad m c :=
    (Pipeline.withArrays_arr spec0 launch0.win.arr_inj c _ _ 2).trans (final m c)
  rw [e]
  -- at (b, ch, X, Y) both sides are the pooled value of batch b, feature ch at voxel X·200 + Y
  refine funext fun (j : S4x64x200x200.Idx) => ?_
  obtain ⟨b, ch, X, Y, rfl⟩ : ∃ (b : Fin 4) (ch : Fin 64) (X Y : Fin 200), j = ix4 b ch X Y :=
    ⟨j 0, j 1, j 2, j 3, eq_ix4 j⟩
  have hv : X.val * 200 + Y.val < 40960 := by have := X.isLt; have := Y.isLt; omega
  refine (slice_relay_apply (pooledPad m c) b ch X Y hv).trans ?_
  rfl

/-- The run, read: the result buffer at the pooled grid, the arguments unchanged. -/
theorem run : θ_run defs (onTc (τ := τ) (main (F := Ideal))) ⟨m, fun _ => 0, ρ⟩ fun r => ∀ c : Dev nD,
      r.2.mem ((c.tc : Thread nD τ).loc main_v37) = Cert.Pool.pooled (xs m c) (gs m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v37 (Pipeline.mem_restRefs_of main_v37 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Hand

end
-- ==== Proof.PoolSeg.lean ====
/-
  The segment sum is the pooled value: over all 4·173184 points, those whose key b'·40000 + g0·200 + g1·1 + g2 (0 for an
  unkept point, whose feature is 0) equals b·40000 + v contribute their feature — the kept points of batch b at voxel v.
-/
import proofs.«416935_j79121887526974_1_alg».proof.Proof.Pool

noncomputable section

open scoped BigOperators

namespace Cert.Pool

open Idealize.ShloMosaic Idealize.ShloMosaic.ValueIdx

open Idealize.ShloMosaic.StableHlo.Predicate in
/-- The key word of a kept point does not wrap: with g0, g1 below 200 and g2 = 0, the 32-bit value
    b'·40000 + g0·200 + g1·1 + g2 read unsigned is the natural number b'·40000 + g0·200 + g1 (below 160000). -/
private theorem key_toNat (b' : Fin 4) (g0 g1 g2 : BitVec 32) (h0 : g0.toNat < 200) (h1 : g1.toNat < 200)
    (h2 : g2 = 0#32) :
    (IntOp.addi (IntOp.addi (IntOp.addi (IntOp.muli (BitVec.ofNat 32 b'.val) 40000#32)
      (IntOp.muli g0 200#32)) (IntOp.muli g1 1#32)) g2).toNat = b'.val * 40000 + g0.toNat * 200 + g1.toNat := by
  subst h2
  have hb : b'.val < 4 := b'.isLt
  simp only [IntOp.addi, IntOp.muli, BitVec.toNat_add, BitVec.toNat_mul, BitVec.toNat_ofNat]
  omega

open Idealize.ShloMosaic.StableHlo.Predicate in
/-- One point's term. An unkept point contributes 0 on both sides (its feature is replaced by 0). A kept point's key,
    read signed, is the natural number b'·40000 + voxel with voxel < 40000, and b'·40000 + voxel = b·40000 + v with
    both voxels below 40000 forces b' = b and voxel = v (and conversely). -/
private theorem term_eq (xs : X3.Idx → EReal) (gs : G3.Idx → BitVec 32) (b b' : Fin 4) (p : Fin 173184)
    (ch : Fin 64) (v : ℕ) (hv : v < 40000) :
    (if (segW gs b' p).toInt = ((b.val * 40000 + v : ℕ) : ℤ) then featR xs gs b' p ch else 0)
      = if b' = b ∧ keptAt gs b' p = 1#1 ∧ voxAt gs b' p = v then xs (ix3 b' p ch) else 0 := by
  have hb : b.val < 4 := b.isLt
  have hb' : b'.val < 4 := b'.isLt
  by_cases hk : keptAt gs b' p = 1#1
  · obtain ⟨h0, h1, h2⟩ := (keptW_iff _ _ _).mp hk
    have hkey := key_toNat b' _ _ _ h0 h1 h2
    have hvox : voxAt gs b' p < 40000 := by unfold voxAt; omega
    have hseg : (segW gs b' p).toInt = ((b'.val * 40000 + voxAt gs b' p : ℕ) : ℤ) := by
      have hnat : b'.val * 40000 + (gs (ix3 b' p (0 : Fin 3))).toNat * 200 + (gs (ix3 b' p (1 : Fin 3))).toNat
          = b'.val * 40000 + voxAt gs b' p := by unfold voxAt; omega
      unfold segW
      rw [hk, select_one, toInt_eq_toNat_of_lt (by rw [hkey]; omega), hkey, hnat]
    have hfeat : featR xs gs b' p ch = xs (ix3 b' p ch) := by unfold featR; rw [hk, select_one]
    have hiff : ((b'.val * 40000 + voxAt gs b' p : ℕ) : ℤ) = ((b.val * 40000 + v : ℕ) : ℤ)
        ↔ b' = b ∧ keptAt gs b' p = 1#1 ∧ voxAt gs b' p = v := by
      rw [Nat.cast_inj]
      constructor
      · intro h
        exact ⟨Fin.ext (by omega), hk, by omega⟩
      · rintro ⟨rfl, -, hvv⟩
        rw [hvv]
    rw [hseg, hfeat]
    simp only [hiff]
  · have hz := eq_zero_of_ne_one hk
    have hfeat : featR xs gs b' p ch = 0 := by unfold featR; rw [hz, select_zero]
    rw [hfeat, ite_self, if_neg (fun h => hk h.2.1)]

/-- THE SEGMENT SUM IS THE POOLED VALUE: summing, over ALL points of ALL batches, the features of those whose key (read
    signed) is b·40000 + v gives batch b's pooled value at voxel v < 40000 — a kept point of another batch has another
    key, and an unkept point adds 0 wherever its key 0 lands. -/
theorem ref_total (xs : X3.Idx → EReal) (gs : G3.Idx → BitVec 32) (b : Fin 4) (ch : Fin 64) (v : ℕ) (hv : v < 40000) :
    (∑ b' : Fin 4, ∑ p : Fin 173184,
      if (segW gs b' p).toInt = ((b.val * 40000 + v : ℕ) : ℤ) then featR xs gs b' p ch else 0) = pool xs gs b ch v := by
  simp only [term_eq xs gs b _ _ ch v hv]
  rw [Fintype.sum_eq_single b]
  · unfold pool
    refine Finset.sum_congr rfl fun p _ => ?_
    simp only [true_and]
  · intro b' hne
    refine Finset.sum_eq_zero fun p _ => ?_
    rw [if_neg (fun h => hne h.1)]

end Cert.Pool

end
-- ==== Proof.RefScatter.lean ====
/-
  The accumulating scatter at the ideal values, read at one entry: row s, column ch of the result is the operand there
  plus the sum, over the 692736 update rows, of column ch of those rows whose scatter index (read signed) is s.
-/
import proofs.«416935_j79121887526974_1_alg».proof.Proof.Gen.ReferenceIdeal
import Idealize.ShloMosaic.PureOps.Ideal.Laws
import Idealize.ShloMosaic.Lib.ValueIdx

noncomputable section

open scoped BigOperators

namespace Cert.ReferenceIdeal.Hand

open Cert.ReferenceIdeal Cert.ReferenceIdeal.Gen Idealize.ShloMosaic Idealize.ShloMosaic.ValueIdx

/-- The scatter's dimension numbers: update axis 1 is the window axis, operand axis 0 is inserted and is the one the
    index word addresses, and the index vector lies on axis 1 of the index array. -/
private abbrev scD := scatter_S160000x64_S692736x1_S692736x64_1_0_0_1

/-- Update entry (n, c) reads its one start component at entry (n, 0) of the index array. -/
private theorem scD_siIdx (n : Fin 692736) (c : Fin 64) :
    scD.siIdx (ix2 n c) ⟨0, by decide⟩ = ix2 n (0 : Fin 1) := by
  funext a
  match a with
  | ⟨0, _⟩ => rfl
  | ⟨1, _⟩ => rfl

/-- On operand axis 0 the window of update entry (n, c) starts at the index word of row n, read signed. -/
private theorem scD_start0 (idx : IVec S692736x1 32) (n : Fin 692736) (c : Fin 64) :
    scD.start (ix2 n c) idx 0 = (idx (ix2 n (0 : Fin 1))).toInt := by
  show (idx (scD.siIdx (ix2 n c) ⟨0, by decide⟩)).toInt = _
  rw [scD_siIdx]

/-- Operand axis 1 is not addressed by the index: the window starts at 0 there. -/
private theorem scD_start1 (idx : IVec S692736x1 32) (n : Fin 692736) (c : Fin 64) :
    scD.start (ix2 n c) idx 1 = 0 := rfl

/-- Operand axis 0 is an inserted axis: its window coordinate is 0. -/
private theorem scD_window0 (n : Fin 692736) (c : Fin 64) : scD.window (ix2 n c) 0 = 0 := rfl

/-- Operand axis 1 carries the update's window axis: its window coordinate is the update's column c. -/
private theorem scD_window1 (n : Fin 692736) (c : Fin 64) : scD.window (ix2 n c) 1 = c.val := rfl

/-- Update entry (n, c) lands inside the operand exactly when row n's index word lies in [0, 160000): on axis 1 the
    landing coordinate is c < 64, always inside. -/
private theorem scD_inRange_iff (idx : IVec S692736x1 32) (n : Fin 692736) (c : Fin 64) :
    (∀ a : Fin S160000x64.rank, 0 ≤ scD.start (ix2 n c) idx a + ↑(scD.window (ix2 n c) a) ∧
        scD.start (ix2 n c) idx a + ↑(scD.window (ix2 n c) a) < ↑(S160000x64.size a))
      ↔ (0 ≤ (idx (ix2 n (0 : Fin 1))).toInt ∧ (idx (ix2 n (0 : Fin 1))).toInt < 160000) := by
  constructor
  · intro h
    have h0 := h 0
    rw [scD_start0, scD_window0] at h0
    have e : ((S160000x64.size 0 : ℕ) : ℤ) = 160000 := rfl
    rw [e] at h0
    omega
  · intro h a
    match a with
    | ⟨0, _⟩ =>
      show 0 ≤ scD.start (ix2 n c) idx 0 + ↑(scD.window (ix2 n c) 0) ∧
        scD.start (ix2 n c) idx 0 + ↑(scD.window (ix2 n c) 0) < ((160000 : ℕ) : ℤ)
      rw [scD_start0, scD_window0]; omega
    | ⟨1, _⟩ =>
      show 0 ≤ scD.start (ix2 n c) idx 1 + ↑(scD.window (ix2 n c) 1) ∧
        scD.start (ix2 n c) idx 1 + ↑(scD.window (ix2 n c) 1) < ((64 : ℕ) : ℤ)
      rw [scD_start1, scD_window1]; have := c.isLt; omega

/-- Update entry (n, c) lands on operand entry (s, ch) exactly when row n's index word, read signed, is s and c = ch.
    If the landing point is inside the operand, it is (index word, c) and the two points are compared by coordinates;
    if it is outside, the update is dropped, and the index word cannot be s because s < 160000 is inside. -/
private theorem scD_resultIdx_iff (idx : IVec S692736x1 32) (n : Fin 692736) (c : Fin 64) (s : Fin 160000)
    (ch : Fin 64) :
    scD.resultIdx? (ix2 n c) idx = some (ix2 s ch)
      ↔ (idx (ix2 n (0 : Fin 1))).toInt = (s.val : ℤ) ∧ c = ch := by
  unfold ScatterDims.resultIdx?
  split
  · rename_i h
    rw [Option.some.injEq]
    constructor
    · intro heq
      have e0 := congrArg Fin.val (congrFun heq 0)
      have e1 := congrArg Fin.val (congrFun heq 1)
      have h0 := (scD_inRange_iff idx n c).1 h
      change (scD.start (ix2 n c) idx 0 + ↑(scD.window (ix2 n c) 0)).toNat = s.val at e0
      change (scD.start (ix2 n c) idx 1 + ↑(scD.window (ix2 n c) 1)).toNat = ch.val at e1
      rw [scD_start0, scD_window0] at e0
      rw [scD_start1, scD_window1] at e1
      refine ⟨by omega, Fin.ext (by omega)⟩
    · rintro ⟨hs, hc⟩
      funext a
      match a with
      | ⟨0, _⟩ =>
        apply Fin.ext
        show (scD.start (ix2 n c) idx 0 + ↑(scD.window (ix2 n c) 0)).toNat = s.val
        rw [scD_start0, scD_window0]; omega
      | ⟨1, _⟩ =>
        apply Fin.ext
        show (scD.start (ix2 n c) idx 1 + ↑(scD.window (ix2 n c) 1)).toNat = ch.val
        rw [scD_start1, scD_window1, hc]; omega
  · rename_i h
    constructor
    · intro h'; cases h'
    · rintro ⟨hs, hc⟩
      exact absurd ((scD_inRange_iff idx n c).2 ⟨by omega, by have := s.isLt; omega⟩) h

/-- Row s, column ch after the scatter: the operand's entry plus every update row n whose index word is s, at
    column ch. An index outside [0, 160000) matches no row s, so the dropped updates need no separate mention. -/
theorem scatterAdd_apply (x : FVec Ideal S160000x64 .f32) (idx : IVec S692736x1 32) (upd : FVec Ideal S692736x64 .f32)
    (s : Fin 160000) (ch : Fin 64) :
    Host.scatterAdd (F := Ideal) scatter_S160000x64_S692736x1_S692736x64_1_0_0_1 x idx upd (ix2 s ch)
      = x (ix2 s ch) + ∑ n : Fin 692736,
          if (idx (ix2 n (0 : Fin 1))).toInt = (s.val : ℤ) then upd (ix2 n ch) else 0 := by
  -- the scatter adds to the operand's entry the updates whose landing point is that entry
  show Ideal.hostScatterAdd scD x idx upd (ix2 s ch) = _
  unfold Ideal.hostScatterAdd
  refine congrArg (x (ix2 s ch) + ·) ?_
  -- the sum over the updates (n, c) that land on (s, ch) is a double sum over n and c of guarded terms
  rw [Finset.sum_filter, sum_idx2]
  refine Finset.sum_congr rfl fun n _ => ?_
  -- in row n the guard is "index word = s and c = ch": only the column c = ch can contribute
  simp only [scD_resultIdx_iff]
  rw [Finset.sum_eq_single ch]
  · simp
  · intro c _ hc
    rw [if_neg]
    rintro ⟨_, h⟩
    exact hc h
  · intro h
    exact absurd (Finset.mem_univ ch) h

end Cert.ReferenceIdeal.Hand

end
-- ==== Proof.RefPoints.lean ====
/-
  The reference's per-point values: row n = b·173184 + p of its flattened [692736, ·] arrays is point p of batch b, so
  the masked feature and the masked segment key it computes there are the pooling specification's.
-/
import proofs.«416935_j79121887526974_1_alg».proof.Proof.Gen.ReferenceIdeal.Read
import proofs.«416935_j79121887526974_1_alg».proof.Proof.Pool
import Idealize.ShloMosaic.Lib.Pipeline.Value
import Idealize.ShloMosaic.PureOps.Ideal.Laws

noncomputable section

namespace Cert.ReferenceIdeal.Hand

open Cert.ReferenceIdeal Cert.ReferenceIdeal.Gen Idealize.ShloMosaic Idealize.ShloMosaic.ValueIdx

/-- The flattened row of point p of batch b. -/
def pointIx (b : Fin 4) (p : Fin 173184) : Fin 692736 :=
  ⟨b.val * 173184 + p.val, by have := b.isLt; have := p.isLt; omega⟩

/-! ## Two re-layings of one array

The reference flattens batch and point into one row axis, the specification keeps them apart. Both are re-layings of the
same argument in row-major order, and row b·173184 + p, column k sits at row-major position (b·173184 + p)·C + k in
either, so the two read the same element. -/

/-- The [692736, C] re-laying at (b·173184 + p, k) is the [4, 173184, C] re-laying at (b, p, k). -/
private theorem shapeCast_row {α : Type} {A : Shape} {C : Nat} (x : A.Idx → α)
    (h2 : A.ShapeCasts ⟨2, ![692736, C]⟩) (h3 : A.ShapeCasts ⟨3, ![4, 173184, C]⟩)
    (b : Fin 4) (p : Fin 173184) (k : Fin C) :
    shapeCast ⟨2, ![692736, C]⟩ x h2 (ix2 (pointIx b p) k) = shapeCast ⟨3, ![4, 173184, C]⟩ x h3 (ix3 b p k) := by
  unfold shapeCast
  refine congrArg x (Shape.reshapeEquiv_eq_of_rowMajor h2 ?_)
  rw [Shape.rowMajor_reshapeEquiv, Shape.rowMajor_val_two, Shape.rowMajor_val_three]
  rfl

/-! ## The coordinate columns

Each coordinate column of the flattened [692736, 3] array is sliced out as [692736, 1] and re-laid as [692736]: row n of
the result is the array at (n, k). -/

private theorem col_v6 (x1 : (⟨S4x6x41x16x44x3, .i32⟩ : BufTy).Contents (Elt Ideal)) (n : Fin 692736) :
    Read.val_main_v6 (F := Ideal) x1 (ix1 n) = Read.val_main_v1 (F := Ideal) x1 (ix2 n (0 : Fin 3)) := by
  rw [Read.val_main_v6_apply, Read.val_main_v5_apply]
  refine congrArg _ (funext fun a => ?_)
  match a with
  | ⟨0, _⟩ => exact Fin.ext (Nat.div_one _)
  | ⟨1, _⟩ => rfl

private theorem col_v10 (x1 : (⟨S4x6x41x16x44x3, .i32⟩ : BufTy).Contents (Elt Ideal)) (n : Fin 692736) :
    Read.val_main_v10 (F := Ideal) x1 (ix1 n) = Read.val_main_v1 (F := Ideal) x1 (ix2 n (0 : Fin 3)) := by
  rw [Read.val_main_v10_apply, Read.val_main_v9_apply]
  refine congrArg _ (funext fun a => ?_)
  match a with
  | ⟨0, _⟩ => exact Fin.ext (Nat.div_one _)
  | ⟨1, _⟩ => rfl

private theorem col_v15 (x1 : (⟨S4x6x41x16x44x3, .i32⟩ : BufTy).Contents (Elt Ideal)) (n : Fin 692736) :
    Read.val_main_v15 (F := Ideal) x1 (ix1 n) = Read.val_main_v1 (F := Ideal) x1 (ix2 n (1 : Fin 3)) := by
  rw [Read.val_main_v15_apply, Read.val_main_v14_apply]
  refine congrArg _ (funext fun a => ?_)
  match a with
  | ⟨0, _⟩ => exact Fin.ext (Nat.div_one _)
  | ⟨1, _⟩ => rfl

private theorem col_v20 (x1 : (⟨S4x6x41x16x44x3, .i32⟩ : BufTy).Contents (Elt Ideal)) (n : Fin 692736) :
    Read.val_main_v20 (F := Ideal) x1 (ix1 n) = Read.val_main_v1 (F := Ideal) x1 (ix2 n (1 : Fin 3)) := by
  rw [Read.val_main_v20_apply, Read.val_main_v19_apply]
  refine congrArg _ (funext fun a => ?_)
  match a with
  | ⟨0, _⟩ => exact Fin.ext (Nat.div_one _)
  | ⟨1, _⟩ => rfl

private theorem col_v25 (x1 : (⟨S4x6x41x16x44x3, .i32⟩ : BufTy).Contents (Elt Ideal)) (n : Fin 692736) :
    Read.val_main_v25 (F := Ideal) x1 (ix1 n) = Read.val_main_v1 (F := Ideal) x1 (ix2 n (2 : Fin 3)) := by
  rw [Read.val_main_v25_apply, Read.val_main_v24_apply]
  refine congrArg _ (funext fun a => ?_)
  match a with
  | ⟨0, _⟩ => exact Fin.ext (Nat.div_one _)
  | ⟨1, _⟩ => rfl

private theorem col_v30 (x1 : (⟨S4x6x41x16x44x3, .i32⟩ : BufTy).Contents (Elt Ideal)) (n : Fin 692736) :
    Read.val_main_v30 (F := Ideal) x1 (ix1 n) = Read.val_main_v1 (F := Ideal) x1 (ix2 n (2 : Fin 3)) := by
  rw [Read.val_main_v30_apply, Read.val_main_v29_apply]
  refine congrArg _ (funext fun a => ?_)
  match a with
  | ⟨0, _⟩ => exact Fin.ext (Nat.div_one _)
  | ⟨1, _⟩ => rfl

private theorem col_v39 (x1 : (⟨S4x6x41x16x44x3, .i32⟩ : BufTy).Contents (Elt Ideal)) (n : Fin 692736) :
    Read.val_main_v39 (F := Ideal) x1 (ix1 n) = Read.val_main_v1 (F := Ideal) x1 (ix2 n (0 : Fin 3)) := by
  rw [Read.val_main_v39_apply, Read.val_main_v38_apply]
  refine congrArg _ (funext fun a => ?_)
  match a with
  | ⟨0, _⟩ => exact Fin.ext (Nat.div_one _)
  | ⟨1, _⟩ => rfl

private theorem col_v44 (x1 : (⟨S4x6x41x16x44x3, .i32⟩ : BufTy).Contents (Elt Ideal)) (n : Fin 692736) :
    Read.val_main_v44 (F := Ideal) x1 (ix1 n) = Read.val_main_v1 (F := Ideal) x1 (ix2 n (1 : Fin 3)) := by
  rw [Read.val_main_v44_apply, Read.val_main_v43_apply]
  refine congrArg _ (funext fun a => ?_)
  match a with
  | ⟨0, _⟩ => exact Fin.ext (Nat.div_one _)
  | ⟨1, _⟩ => rfl

private theorem col_v49 (x1 : (⟨S4x6x41x16x44x3, .i32⟩ : BufTy).Contents (Elt Ideal)) (n : Fin 692736) :
    Read.val_main_v49 (F := Ideal) x1 (ix1 n) = Read.val_main_v1 (F := Ideal) x1 (ix2 n (2 : Fin 3)) := by
  rw [Read.val_main_v49_apply, Read.val_main_v48_apply]
  refine congrArg _ (funext fun a => ?_)
  match a with
  | ⟨0, _⟩ => exact Fin.ext (Nat.div_one _)
  | ⟨1, _⟩ => rfl

/-- The flattened coordinate array at row b·173184 + p is the specification's coordinate array at (b, p). -/
private theorem v1_point (x1 : (⟨S4x6x41x16x44x3, .i32⟩ : BufTy).Contents (Elt Ideal)) (b : Fin 4) (p : Fin 173184) (k : Fin 3) :
    Read.val_main_v1 (F := Ideal) x1 (ix2 (pointIx b p) k) = Cert.Pool.gsOf x1 (ix3 b p k) := by
  unfold Read.val_main_v1
  exact shapeCast_row x1 _ _ b p k

/-- The flattened feature array at row b·173184 + p is the specification's feature array at (b, p). -/
private theorem v0_point (x0 : (⟨S4x6x41x16x44x64, .f32⟩ : BufTy).Contents (Elt Ideal)) (b : Fin 4) (p : Fin 173184) (ch : Fin 64) :
    Read.val_main_v0 (F := Ideal) x0 (ix2 (pointIx b p) ch) = Cert.Pool.xsOf x0 (ix3 b p ch) := by
  unfold Read.val_main_v0
  exact shapeCast_row x0 _ _ b p ch

/-! ## The kept bit -/

/-- The conjunction of the six range tests at row b·173184 + p is the specification's kept bit of point p of batch b. -/
private theorem kept_point (x1 : (⟨S4x6x41x16x44x3, .i32⟩ : BufTy).Contents (Elt Ideal)) (b : Fin 4) (p : Fin 173184) :
    Read.val_main_v33 (F := Ideal) x1 (ix1 (pointIx b p)) = Cert.Pool.keptAt (Cert.Pool.gsOf x1) b p := by
  rw [Read.val_main_v33_apply, Read.val_main_v28_apply, Read.val_main_v23_apply, Read.val_main_v18_apply,
    Read.val_main_v13_apply, Read.val_main_v8_apply, Read.val_main_v12_apply, Read.val_main_v17_apply,
    Read.val_main_v22_apply, Read.val_main_v27_apply, Read.val_main_v32_apply,
    Read.val_main_v7_apply, Read.val_main_v11_apply, Read.val_main_v16_apply, Read.val_main_v21_apply,
    Read.val_main_v26_apply, Read.val_main_v31_apply,
    Read.val_main_c_apply, Read.val_main_c_0_apply, Read.val_main_c_1_apply, Read.val_main_c_2_apply,
    Read.val_main_c_3_apply, Read.val_main_c_4_apply,
    col_v6, col_v10, col_v15, col_v20, col_v25, col_v30,
    v1_point, v1_point, v1_point]
  rfl

/-! ## The batch number of a row -/

/-- The batch column at row b·173184 + p holds b: the row's quotient by 173184. -/
private theorem v4_point (b : Fin 4) (p : Fin 173184) :
    Read.val_main_v4 (F := Ideal) (ix1 (pointIx b p)) = BitVec.ofNat 32 b.val := by
  rw [Read.val_main_v4_apply, Read.val_main_v3_apply, Read.val_main_v2_apply]
  refine congrArg (BitVec.ofNat 32) ?_
  show (b.val * 173184 + p.val) / 173184 = b.val
  have := p.isLt
  omega

/-! ## The two interface equations -/

/-- The update row of point p of batch b at column ch: the point's feature if it is kept, else 0. -/
theorem upd_apply (x0 : (⟨S4x6x41x16x44x64, .f32⟩ : BufTy).Contents (Elt Ideal)) (x1 : (⟨S4x6x41x16x44x3, .i32⟩ : BufTy).Contents (Elt Ideal))
    (b : Fin 4) (p : Fin 173184) (ch : Fin 64) :
    Read.val_main_v35 (F := Ideal) x0 x1 (ix2 (pointIx b p) ch)
      = Cert.Pool.featR (Cert.Pool.xsOf x0) (Cert.Pool.gsOf x1) b p ch := by
  have hi : Read.idx_main_v34 (Read.idx_main_call0_v1 (ix2 (pointIx b p) ch)) = ix1 (pointIx b p) :=
    funext fun a => match a with | ⟨0, _⟩ => rfl
  rw [Read.val_main_v35_apply, Read.val_main_call0_v1_apply, Read.val_main_v34_apply, hi, kept_point, v0_point,
    Read.val_main_call0_v2_apply, Read.val_main_call0_v0_apply, Read.val_main_cst_apply]
  show Scalar.select _ _ (Ideal.ofBits .f32 0x00000000#32) = _
  rw [Ideal.ofBits_zero_f32]
  rfl

/-- The scatter index of point p of batch b: its segment key. -/
theorem seg_apply (x1 : (⟨S4x6x41x16x44x3, .i32⟩ : BufTy).Contents (Elt Ideal)) (b : Fin 4) (p : Fin 173184) :
    Read.val_main_v53 (F := Ideal) x1 (ix2 (pointIx b p) (0 : Fin 1)) = Cert.Pool.segW (Cert.Pool.gsOf x1) b p := by
  have hi : Read.idx_main_v53 (ix2 (pointIx b p) (0 : Fin 1)) = ix1 (pointIx b p) :=
    funext fun a => match a with | ⟨0, _⟩ => rfl
  rw [Read.val_main_v53_apply, hi, Read.val_main_v51_apply, kept_point,
    Read.val_main_v50_apply, Read.val_main_v47_apply, Read.val_main_v42_apply, Read.val_main_v37_apply,
    Read.val_main_v41_apply, Read.val_main_v46_apply,
    Read.val_main_v36_apply, Read.val_main_v40_apply, Read.val_main_v45_apply,
    Read.val_main_c_5_apply, Read.val_main_c_6_apply, Read.val_main_c_7_apply,
    Read.val_main_call1_v1_apply, Read.val_main_call1_v0_apply, Read.val_main_c_8_apply,
    v4_point, col_v39, col_v44, col_v49, v1_point, v1_point, v1_point]
  rfl

end Cert.ReferenceIdeal.Hand

end
-- ==== Proof.RefValue.lean ====
/-
  The reference's result read at an index: its segment sum, followed back through the three re-layouts, is the pooled
  value.
-/
import proofs.«416935_j79121887526974_1_alg».proof.Proof.Gen.ReferenceIdeal.Run
import proofs.«416935_j79121887526974_1_alg».proof.Proof.Gen.ReferenceIdeal.Read
import proofs.«416935_j79121887526974_1_alg».proof.Proof.Pool
import proofs.«416935_j79121887526974_1_alg».proof.Proof.PoolSeg
import proofs.«416935_j79121887526974_1_alg».proof.Proof.RefScatter
import proofs.«416935_j79121887526974_1_alg».proof.Proof.RefPoints

noncomputable section

open scoped BigOperators

namespace Cert.ReferenceIdeal.Hand

open Cert.ReferenceIdeal Cert.ReferenceIdeal.Gen Idealize.ShloMosaic Idealize.ShloMosaic.TcCoe Idealize.ShloMosaic.ValueIdx Idealize.SL.Sem

/-! ## The flattened rows are the pairs (batch, point) -/

/-- Row n of the flattened points is point n mod 173184 of batch n div 173184, and every pair (batch, point) is one row. -/
def pointEquiv : Fin 4 × Fin 173184 ≃ Fin 692736 where
  toFun q := pointIx q.1 q.2
  invFun n := (⟨n.val / 173184, by have := n.isLt; omega⟩, ⟨n.val % 173184, by omega⟩)
  left_inv q := by
    rcases q with ⟨b, p⟩
    have hb := b.isLt
    have hp := p.isLt
    refine Prod.ext (Fin.ext ?_) (Fin.ext ?_)
    · show (b.val * 173184 + p.val) / 173184 = b.val
      omega
    · show (b.val * 173184 + p.val) % 173184 = p.val
      omega
  right_inv n := Fin.ext (by
    show n.val / 173184 * 173184 + n.val % 173184 = n.val
    omega)

/-- A sum over the flattened rows is the double sum over batches and points. -/
theorem sum_rows {M : Type*} [AddCommMonoid M] (f : Fin 692736 → M) :
    ∑ n : Fin 692736, f n = ∑ b : Fin 4, ∑ p : Fin 173184, f (pointIx b p) := by
  rw [← Equiv.sum_comp pointEquiv f, Fintype.sum_prod_type]
  rfl

/-! ## The three re-layouts -/

/-- The row-major position ((b·64 + ch)·200 + x)·200 + y of (b, ch, x, y) in [4, 64, 200, 200] gives its coordinates
    back by division and remainder. -/
theorem position_split (b ch X Y : ℕ) (hb : b < 4) (hc : ch < 64) (hX : X < 200) (hY : Y < 200) :
    (((b * 64 + ch) * 200 + X) * 200 + Y) / 2560000 = b ∧ (((b * 64 + ch) * 200 + X) * 200 + Y) / 40000 % 64 = ch ∧ (((b * 64 + ch) * 200 + X) * 200 + Y) / 200 % 200 = X ∧ (((b * 64 + ch) * 200 + X) * 200 + Y) % 200 = Y := by
  refine ⟨?_, ?_, ?_, ?_⟩ <;> omega

/-- Followed back through the last reshape, the transpose and the first reshape, the result's entry (b, ch, x, y) is
    the segment sum's entry at row b·40000 + (x·200 + y), column ch: the result's row-major position
    ((b·64 + ch)·200 + x)·200 + y splits into (b, ch, 0, x, y), the transpose reorders that to (b, x, y, 0, ch), whose
    row-major position is (b·40000 + x·200 + y)·64 + ch. -/
theorem relayout_idx (b : Fin 4) (ch : Fin 64) (X Y : Fin 200) :
    Read.idx_main_v55 (Read.idx_main_v56 (Read.idx_main_v57 (ix4 b ch X Y)))
      = ix2 (⟨b.val * 40000 + (X.val * 200 + Y.val), by have := b.isLt; have := X.isLt; have := Y.isLt; omega⟩ : Fin 160000) ch := by
  have hb := b.isLt
  have hc := ch.isLt
  have hX := X.isLt
  have hY := Y.isLt
  obtain ⟨h0, h1, h3, h4⟩ := position_split b.val ch.val X.val Y.val hb hc hX hY
  funext a
  match a with
  | ⟨0, _⟩ =>
    refine Fin.ext ?_
    show ((((((((b.val * 64 + ch.val) * 200 + X.val) * 200 + Y.val) / 2560000) * 200 + ((((b.val * 64 + ch.val) * 200 + X.val) * 200 + Y.val) / 200 % 200)) * 200 + ((((b.val * 64 + ch.val) * 200 + X.val) * 200 + Y.val) % 200)) * 1 + 0) * 64 + ((((b.val * 64 + ch.val) * 200 + X.val) * 200 + Y.val) / 40000 % 64)) / 64 = b.val * 40000 + (X.val * 200 + Y.val)
    rw [h0, h1, h3, h4]
    omega
  | ⟨1, _⟩ =>
    refine Fin.ext ?_
    show ((((((((b.val * 64 + ch.val) * 200 + X.val) * 200 + Y.val) / 2560000) * 200 + ((((b.val * 64 + ch.val) * 200 + X.val) * 200 + Y.val) / 200 % 200)) * 200 + ((((b.val * 64 + ch.val) * 200 + X.val) * 200 + Y.val) % 200)) * 1 + 0) * 64 + ((((b.val * 64 + ch.val) * 200 + X.val) * 200 + Y.val) / 40000 % 64)) % 64 = ch.val
    rw [h0, h1, h3, h4]
    omega

/-! ## The result as a function of the two arguments -/

/-- The scatter's operand is the zero block. -/
theorem operand_zero (j : S160000x64.Idx) : Read.val_main_v52 (F := Ideal) j = 0 := by
  rw [Read.val_main_v52_apply]
  exact Ideal.ofBits_zero_f32

/-- The reference's last stage at (b, ch, x, y), as a function of the two arguments: the pooled value. -/
theorem val_apply (x0 : (⟨S4x6x41x16x44x64, .f32⟩ : BufTy).Contents (Elt Ideal)) (x1 : (⟨S4x6x41x16x44x3, .i32⟩ : BufTy).Contents (Elt Ideal)) (b : Fin 4) (ch : Fin 64) (X Y : Fin 200) :
    Read.val_main_v57 (F := Ideal) x0 x1 (ix4 b ch X Y)
      = Cert.Pool.pool (Cert.Pool.xsOf x0) (Cert.Pool.gsOf x1) b ch (X.val * 200 + Y.val) := by
  have hX := X.isLt
  have hY := Y.isLt
  rw [Read.val_main_v57_apply, Read.val_main_v56_apply, Read.val_main_v55_apply, relayout_idx]
  unfold Read.val_main_v54
  refine (scatterAdd_apply _ _ _ _ ch).trans ?_
  rw [operand_zero, zero_add, sum_rows]
  refine (Finset.sum_congr rfl fun b' _ => Finset.sum_congr rfl fun p _ => ?_).trans
    (Cert.Pool.ref_total (Cert.Pool.xsOf x0) (Cert.Pool.gsOf x1) b ch (X.val * 200 + Y.val) (by omega))
  rw [seg_apply, upd_apply]

variable (m : (ℓ : Loc nD τ sig) → Buf (Elt Ideal) ℓ)

/-- The reference's result at (b, ch, x, y) is the pooled value of batch b, feature ch at voxel x·200 + y, of the
    arguments re-laid as [batch, point, ·]. -/
theorem res_apply (c : Dev nD) (b : Fin 4) (ch : Fin 64) (X Y : Fin 200) :
    Cert.ReferenceIdeal.Value.res_out0 (F := Ideal) m c (ix4 b ch X Y)
      = Cert.Pool.pool (Cert.Pool.xsOf (m ((c.tc : Thread nD τ).loc main_arg0)))
          (Cert.Pool.gsOf (m ((c.tc : Thread nD τ).loc main_arg1))) b ch (X.val * 200 + Y.val) := by
  show Cert.ReferenceIdeal.Value.res_main_v57 m c (ix4 b ch X Y) = _
  rw [Read.val_main_v57_eq]
  exact val_apply _ _ b ch X Y

end Cert.ReferenceIdeal.Hand

end
-- ==== Proof.lean ====
/-
  Voxel pooling (the "lift-splat" segment sum) computed two ways is one function of the inputs.

  Inputs: features x[4, 6, 41, 16, 44, 64] and integer voxel coordinates g[4, 6, 41, 16, 44, 3]; a batch's
  6·41·16·44 = 173184 points are taken in row-major order. A point is kept when 0 ≤ g0 < 200, 0 ≤ g1 < 200 and
  0 ≤ g2 < 1, and a kept point's voxel is g0·200 + g1. The result [4, 64, 200, 200] at (b, ch, x, y) is the sum of
  feature ch over the kept points of batch b whose voxel is x·200 + y (`Cert.Pool.pooled`).

  The kernel computes it as a masked matrix product: per batch it pads the points to 43 tiles of 4096 (features of
  unkept and padding points replaced by 0, their voxel words by 0) and, for each of 20 tiles of 2048 voxels, adds up
  over the 43 point tiles the product of the tile's features with the 0/1 matrix "point's voxel word = this voxel",
  in a running total that restarts at point tile 0; it then keeps voxels 0 … 39999 and re-lays them as [200, 200].
  The reference adds, for every point of every batch, its (masked) features into row b·40000 + g0·200 + g1·1 + g2 of a
  [160000, 64] table (row 0 for an unkept point, whose features are 0) and re-lays the table.

  At the ideal values both are the same finite sum of the same entries of x: addition of extended reals is commutative
  and associative and 0 · x = 0 for every extended real x, so the two arrangements agree whatever the inputs are —
  the finiteness precondition is not used. The rewriting pass changed nothing in the kernel, so the kernel and its
  idealization are one text and that claim is trivial.
-/
import proofs.«416935_j79121887526974_1_alg».proof.Defs
import proofs.«416935_j79121887526974_1_alg».proof.Proof.Gen.Kernel.Frame
import proofs.«416935_j79121887526974_1_alg».proof.Proof.Gen.KernelIdeal.Frame
import proofs.«416935_j79121887526974_1_alg».proof.Proof.Gen.ReferenceIdeal.Run
import proofs.«416935_j79121887526974_1_alg».proof.Proof.Gen.Pre_finite_inputs
import proofs.«416935_j79121887526974_1_alg».proof.Proof.KTail
import proofs.«416935_j79121887526974_1_alg».proof.Proof.RefValue

noncomputable section

namespace Cert.Proof

open Idealize.ShloMosaic Idealize.ShloMosaic.TcCoe Idealize.ShloMosaic.ValueIdx Idealize.SL.Sem

/-- Both programs run and leave the arguments alone. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the ideal values the kernel's result is the pooled grid of its arguments, and so is the reference's, entry by
    entry; the arguments agree. -/
theorem algebraic : Cert.algebraic_KernelIdeal_ReferenceIdeal := by
  intro m ρ m' ρ' _ hagree
  refine ⟨fun c => Cert.Pool.pooled (Cert.KernelIdeal.Hand.xs m c) (Cert.KernelIdeal.Hand.gs m c),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  funext j
  obtain ⟨b, ch, X, Y, rfl⟩ : ∃ (b : Fin 4) (ch : Fin 64) (X Y : Fin 200), j = ix4 b ch X Y :=
    ⟨j 0, j 1, j 2, j 3, eq_ix4 j⟩
  refine (Cert.ReferenceIdeal.Hand.res_apply m' c b ch X Y).trans ?_
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
